-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S64x128 : Shape := ⟨2, ![64, 128]⟩
abbrev S500000 : Shape := ⟨1, ![500000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S500000 : S_.BroadcastsInDim S500000 (![] : Fin 0 → Fin S500000.rank)
  reducesTo_S500000_S_d0 : S500000.ReducesTo [0] S_

variable [Facts]

def fn_part6 {F : FTy → Type} [FloatOps F] (main_arg4 : IVec S500000 32) (main_arg22 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_c_42 : IVec S_ 32 := constantI S_ 32 0#32
  let main_v109 : IVec S500000 32 := broadcastInDim S500000 ![] bcast_S_S500000 main_c_42
  let main_v110 : IVec S500000 1 := cmpi .sge main_arg4 main_v109
  let main_c_43 : IVec S_ 32 := constantI S_ 32 64#32
  let main_v111 : IVec S500000 32 := broadcastInDim S500000 ![] bcast_S_S500000 main_c_43
  let main_v112 : IVec S500000 1 := cmpi .slt main_arg4 main_v111
  let main_v113 : IVec S500000 1 := andi main_v110 main_v112
  let main_c_44 : IVec S_ 1 := constantI S_ 1 1#1
  let main_v114 : IVec S_ 1 := (fun x v => Host.reduce IntOp.andi x v reducesTo_S500000_S_d0 h_S_) main_v113 main_c_44
  let main_v115 : IVec S_ 1 := andi main_v108 main_v114
  main_v115

def fn_part5 {F : FTy → Type} [FloatOps F] (main_arg4 : IVec S500000 32) (main_arg19 : FVec F S128 .f32) (main_arg20 : FVec F S128 .f32) (main_arg21 : FVec F S128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg4 main_arg22 main_v98 main_v101 main_c_39

def fn_part4 {F : FTy → Type} [FloatOps F] (main_arg4 : IVec S500000 32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg4 main_arg19 main_arg20 main_arg21 main_arg22 main_v83 main_v84 main_cst_32

def fn_part3 {F : FTy → Type} [FloatOps F] (main_arg4 : IVec S500000 32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg4 main_arg15 main_arg16 main_arg17 main_arg18 main_arg19 main_arg20 main_arg21 main_arg22 main_v63 main_v67

def fn_part2 {F : FTy → Type} [FloatOps F] (main_arg4 : IVec S500000 32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg4 main_arg12 main_arg13 main_arg14 main_arg15 main_arg16 main_arg17 main_arg18 main_arg19 main_arg20 main_arg21 main_arg22 main_v48 main_v49 main_v50

def fn_part1 {F : FTy → Type} [FloatOps F] (main_arg4 : IVec S500000 32) (main_arg5 : FVec F S512x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S512x128 .f32 := Host.absf main_arg5
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S500000x128 .f32) (main_arg1 : FVec F S500000x128 .f32) (main_arg2 : FVec F S500000x128 .f32) (main_arg3 : FVec F S64x128 .f32) (main_arg4 : IVec S500000 32) (main_arg5 : FVec F S512x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S500000x128 : Shape := ⟨2, ![500000, 128]⟩
abbrev S64x128 : Shape := ⟨2, ![64, 128]⟩
abbrev S500000 : Shape := ⟨1, ![500000]⟩
abbrev S512x128 : Shape := ⟨2, ![512, 128]⟩
abbrev S128 : Shape := ⟨1, ![128]⟩
abbrev S128x128 : Shape := ⟨2, ![128, 128]⟩
abbrev S500000x1 : Shape := ⟨2, ![500000, 1]⟩
abbrev S1x128 : Shape := ⟨2, ![1, 128]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 40
  | .vmem => 29
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S64x128, .f32⟩
  | .hbm, ⟨4, _⟩ => ⟨S500000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S500000x1, .i32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S500000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x1, .i32⟩
  | .local _ .vmem, ⟨7, _⟩ => ⟨S2000x1, .i32⟩
  | .local _ .vmem, ⟨8, _⟩ => ⟨S64x128, .f32⟩
  | .local _ .vmem, ⟨9, _⟩ => ⟨S512x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg23_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem23_1 : DmaSem sig := 28

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S2000x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  shapeCasts_S500000_S500000x1 : S500000.ShapeCasts S500000x1
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  inb_S512x128_S128x128_0_0 : ∀ a, (![0, 0] : Fin 2 → Nat) a + S128x128.size a ≤ S512x128.size a
  h_S128x128 : 0 < S128x128.numel
  inb_S512x128_S128x128_128_0 : ∀ a, (![128, 0] : Fin 2 → Nat) a + S128x128.size a ≤ S512x128.size a
  inb_S512x128_S128x128_256_0 : ∀ a, (![256, 0] : Fin 2 → Nat) a + S128x128.size a ≤ S512x128.size a
  inb_S512x128_S128x128_384_0 : ∀ a, (![384, 0] : Fin 2 → Nat) a + S128x128.size a ≤ S512x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  dot_S2000x64_S64x128_S2000x128_1_0_0_1_n_n_wf : DotDims.WF S2000x64 S64x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S500000x1.size a
  hwx0_3 : ∀ i : grid0.Coords, EltTy.bits .i32 = 32 ∨ (Rect.block (s := S500000x1) S2000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x128.size a ≤ S1x128.size a
  hwx0_21 : ∀ i : grid0.Coords, EltTy.bits .f32 = 32 ∨ (Rect.block (s := S1x128) S1x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2000x128.size a ≤ S500000x128.size a
  hwx0_23 : ∀ i : grid0.Coords, EltTy.bits .f32 = 32 ∨ (Rect.block (s := S500000x128) S2000x128.size (cc0_transform_23 i) (hinb0_23 i)).WholeWords (EltTy.packing .f32)

variable [Facts₀]

def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v10) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v12) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v13) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v14) S1x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v15) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v16) S2000x128.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S500000x128 : Shape := ⟨2, ![500000, 128]⟩
abbrev S64x128 : Shape := ⟨2, ![64, 128]⟩
abbrev S500000 : Shape := ⟨1, ![500000]⟩
abbrev S512x128 : Shape := ⟨2, ![512, 128]⟩
abbrev S128 : Shape := ⟨1, ![128]⟩
abbrev S128x128 : Shape := ⟨2, ![128, 128]⟩
abbrev S_ : Shape := ⟨0, ![]⟩
abbrev S500000x1 : Shape := ⟨2, ![500000, 1]⟩
abbrev S500000x512 : Shape := ⟨2, ![500000, 512]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x128, .f32⟩
  | .hbm, ⟨3, _⟩ => ⟨S64x128, .f32⟩
  | .hbm, ⟨4, _⟩ => ⟨S500000, .i32⟩
  | .hbm, ⟨5, _⟩ => ⟨S512x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x128, .f32⟩
  | .hbm, ⟨32, _⟩ => ⟨S500000x512, .f32⟩
  | .hbm, ⟨33, _⟩ => ⟨S500000x128, .f32⟩
  | .hbm, ⟨34, _⟩ => ⟨S1x128, .f32⟩
  | .hbm, ⟨35, _⟩ => ⟨S500000x128, .f32⟩
  | .hbm, ⟨36, _⟩ => ⟨S500000x128, .f32⟩
  | .hbm, ⟨37, _⟩ => ⟨S_, .f32⟩
  | .hbm, ⟨38, _⟩ => ⟨S500000x128, .f32⟩
  | .hbm, ⟨39, _⟩ => ⟨S500000x128, .f32⟩
  | .hbm, ⟨40, _⟩ => ⟨S1x128, .f32⟩
  | .hbm, ⟨41, _⟩ => ⟨S500000x128, .f32⟩
  | .hbm, ⟨42, _⟩ => ⟨S500000x128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S500000x128, .f32⟩
  | .hbm, ⟨49, _⟩ => ⟨S500000x128, .f32⟩
  | .hbm, ⟨50, _⟩ => ⟨S1x128, .f32⟩
  | .hbm, ⟨51, _⟩ => ⟨S500000x128, .f32⟩
  | .hbm, ⟨52, _⟩ => ⟨S500000x128, .f32⟩
  | .hbm, ⟨53, _⟩ => ⟨S1x128, .f32⟩
  | .hbm, ⟨54, _⟩ => ⟨S500000x128, .f32⟩
  | .hbm, ⟨55, _⟩ => ⟨S500000x128, .f32⟩
  | .hbm, ⟨56, _⟩ => ⟨S500000x128, .f32⟩
  | .hbm, ⟨57, _⟩ => ⟨S1x128, .f32⟩
  | .hbm, ⟨58, _⟩ => ⟨S500000x128, .f32⟩
  | .hbm, ⟨59, _⟩ => ⟨S500000x128, .f32⟩
  | .hbm, ⟨60, _⟩ => ⟨S_, .f32⟩
  | .hbm, ⟨61, _⟩ => ⟨S500000x128, .f32⟩
  | .hbm, ⟨62, _⟩ => ⟨S500000x128, .f32⟩
  | .hbm, ⟨63, _⟩ => ⟨S1x128, .f32⟩
  | .hbm, ⟨64, _⟩ => ⟨S500000x128, .f32⟩
  | .hbm, ⟨65, _⟩ => ⟨S500000x128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S500000x128, .f32⟩
  | .hbm, ⟨72, _⟩ => ⟨S500000x128, .f32⟩
  | .hbm, ⟨73, _⟩ => ⟨S1x128, .f32⟩
  | .hbm, ⟨74, _⟩ => ⟨S500000x128, .f32⟩
  | .hbm, ⟨75, _⟩ => ⟨S500000x128, .f32⟩
  | .hbm, ⟨76, _⟩ => ⟨S1x128, .f32⟩
  | .hbm, ⟨77, _⟩ => ⟨S500000x128, .f32⟩
  | .hbm, ⟨78, _⟩ => ⟨S500000x128, .f32⟩
  | .hbm, ⟨79, _⟩ => ⟨S500000x128, .f32⟩
  | .hbm, ⟨80, _⟩ => ⟨S1x128, .f32⟩
  | .hbm, ⟨81, _⟩ => ⟨S500000x128, .f32⟩
  | .hbm, ⟨82, _⟩ => ⟨S500000x128, .f32⟩
  | .hbm, ⟨83, _⟩ => ⟨S_, .f32⟩
  | .hbm, ⟨84, _⟩ => ⟨S500000x128, .f32⟩
  | .hbm, ⟨85, _⟩ => ⟨S500000x128, .f32⟩
  | .hbm, ⟨86, _⟩ => ⟨S1x128, .f32⟩
  | .hbm, ⟨87, _⟩ => ⟨S500000x128, .f32⟩
  | .hbm, ⟨88, _⟩ => ⟨S500000x128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S1x128, .f32⟩
  | .hbm, ⟨94, _⟩ => ⟨S500000x128, .f32⟩
  | .hbm, ⟨95, _⟩ => ⟨S500000x128, .f32⟩
  | .hbm, ⟨96, _⟩ => ⟨S1x128, .f32⟩
  | .hbm, ⟨97, _⟩ => ⟨S500000x128, .f32⟩
  | .hbm, ⟨98, _⟩ => ⟨S500000x128, .f32⟩
  | .hbm, ⟨99, _⟩ => ⟨S1x128, .f32⟩
  | .hbm, ⟨100, _⟩ => ⟨S500000x128, .f32⟩
  | .hbm, ⟨101, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call0_cst : Ref sig .tc := ⟨.hbm, 37, rfl⟩
abbrev main_call0_v0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call1_cst : Ref sig .tc := ⟨.hbm, 60, rfl⟩
abbrev main_call1_v0 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_1 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call2_cst : Ref sig .tc := ⟨.hbm, 83, rfl⟩
abbrev main_call2_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_2 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x128_S500000x512_d1 : Shape.Concatenates [S500000x128, S500000x128, S500000x128, S500000x128] S500000x512 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S128 : S_.BroadcastsInDim S128 (![] : Fin 0 → Fin S128.rank)
  gather_S64x128_S500000x1_S500000x128_1_0_n_n_0_1_1128_wf : GatherDims.WF S64x128 S500000x1 S500000x128 [1] [0] [] [0] [] 1 ![1, 128]
  dot_S500000x512_S512x128_S500000x128_1_0_0_1_n_n_wf : DotDims.WF S500000x512 S512x128 S500000x128 [1] [0] [0] [1] [] []
  dot_S500000x128_S128x128_S500000x128_1_0_0_1_n_n_wf : DotDims.WF S500000x128 S128x128 S500000x128 [1] [0] [0] [1] [] []

variable [Facts₀]

def gather_S64x128_S500000x1_S500000x128_1_0_n_n_0_1_1128 : GatherDims S64x128 S500000x1 S500000x128 where
  offsetDims := [1]
  collapsedSliceDims := [0]
  operandBatchingDims := []
  startIndicesBatchingDims := []
  startIndexMap := [0]
  indexVectorDim := 1
  sliceSizes := ![1, 128]
  wf := gather_S64x128_S500000x1_S500000x128_1_0_n_n_0_1_1128_wf
def dot_S500000x512_S512x128_S500000x128_1_0_0_1_n_n : DotDims S500000x512 S512x128 S500000x128 where
  lhsContracting := [1]
  rhsContracting := [0]
  lhsNonContracting := [0]
  rhsNonContracting := [1]
  lhsBatch := []
  rhsBatch := []
  wf := dot_S500000x512_S512x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.Spec.lean ====
/-
  The edge network, one edge at a time, over the extended reals.

  An edge e of graph b(e) is given the row  c(e) = [ src(e) | dest(e) | edge_attr(e) | u(b(e)) ]  of 512 numbers, and
  three layers follow, each  x ↦ ((max(x·W + b, 0) − m) · (v + ε)^(-1/2)) · g + β  entry by entry (a linear map, a
  rectifier, and a normalisation by fixed statistics m, v with gain g and offset β).

  Two ways of computing the first linear map are compared here.  One contracts the joined row c(e) with the whole
  512 × 128 matrix.  The other contracts each of the four 128-wide pieces with its own 128 rows of the matrix and adds
  the four results, the fourth piece being itself a sum  Σ_j [b(e) = j] · u(j)  over all 64 graphs.  Addition of extended
  reals is commutative and associative, so a sum over 512 terms is the sum of its four quarters in any grouping
  (`sum_quarters`); and since 1 · x = x and 0 · x = 0 for EVERY extended real x, the sum over the graphs has one
  surviving term, u(b(e)), as soon as 0 ≤ b(e) < 64 (`pick_row`).  No finiteness is used anywhere.
-/
import Idealize.ShloMosaic.PureOps.Ideal
import Idealize.ShloMosaic.Lib.ValueIdx

noncomputable section

namespace Cert.EdgeNet

open Idealize.ShloMosaic Idealize.ShloMosaic.ValueIdx

/-! ## One layer -/

/-- The rectifier's threshold, the word of 0.0. -/
abbrev zeroW : EReal := Ideal.ofBits .f32 0x00000000#32
/-- The normalisation's ε, the word of 1e-5 both programs carry. -/
abbrev epsW : EReal := Ideal.ofBits .f32 0x3727C5AC#32

/-- Rectify, then subtract the running mean. -/
def shift (h m : EReal) : EReal := max h zeroW - m
/-- Divide by the running deviation, then gain and offset. -/
def scale (a v g be : EReal) : EReal := a * Ideal.rsqrt (v + epsW) * g + be
/-- Entry d of x·W + b. -/
def dense {K : Nat} (x : Fin K → EReal) (W : Fin K → Fin 128 → EReal) (b : Fin 128 → EReal) (d : Fin 128) : EReal :=
  (∑ k, x k * W k d) + b d
/-- One layer of the network on one row. -/
def layer {K : Nat} (x : Fin K → EReal) (W : Fin K → Fin 128 → EReal) (b m v g be : Fin 128 → EReal) (d : Fin 128) : EReal :=
  scale (shift (dense x W b d) (m d)) (v d) (g d) (be d)

/-! ## The joined row, and its contraction quarter by quarter -/

/-- Four rows of 128 side by side. -/
def joined (s d e g : Fin 128 → EReal) (k : Fin 512) : EReal :=
  if h : k.val < 128 then s ⟨k.val, h⟩
  else if h : k.val < 256 then d ⟨k.val - 128, by omega⟩
  else if h : k.val < 384 then e ⟨k.val - 256, by omega⟩
  else g ⟨k.val - 384, by omega⟩

/-- Row 128·j + k of a matrix of 512 rows. -/
abbrev quarter (j : Fin 4) (k : Fin 128) : Fin 512 := ⟨128 * j.val + k.val, by omega⟩

/-- A sum over 512 terms is the sum of its four quarters, grouped from the left. -/
theorem sum_quarters {M : Type*} [AddCommMonoid M] (f : Fin 512 → M) :
    ∑ k, f k = ((∑ k : Fin 128, f (quarter 0 k) + ∑ k : Fin 128, f (quarter 1 k)) + ∑ k : Fin 128, f (quarter 2 k))
      + ∑ k : Fin 128, f (quarter 3 k) := by
  have e : ∑ k : Fin 512, f k = ∑ k : Fin (128 + 128 + 128 + 128), f (Fin.cast (by norm_num) k) :=
    (Fin.sum_congr' f (by norm_num : 128 + 128 + 128 + 128 = 512)).symm
  rw [e, Fin.sum_univ_add, Fin.sum_univ_add, Fin.sum_univ_add]
  refine congrArg₂ (· + ·) (congrArg₂ (· + ·) (congrArg₂ (· + ·) ?_ ?_) ?_) ?_ <;>
    refine Finset.sum_congr rfl fun k _ => congrArg f (Fin.ext ?_) <;>
    simp [quarter, Fin.val_natAdd, Fin.val_castAdd] <;> omega

/-- The linear map on the joined row, quarter by quarter. -/
def dense4 (s d e g : Fin 128 → EReal) (W : Fin 512 → Fin 128 → EReal) (q : Fin 128) : EReal :=
  ((∑ k : Fin 128, s k * W (quarter 0 k) q + ∑ k : Fin 128, d k * W (quarter 1 k) q) + ∑ k : Fin 128, e k * W (quarter 2 k) q)
    + ∑ k : Fin 128, g k * W (quarter 3 k) q

theorem joined_quarter0 (s d e g : Fin 128 → EReal) (k : Fin 128) : joined s d e g (quarter 0 k) = s k := by
  unfold joined; rw [dif_pos (by show 128 * 0 + k.val < 128; omega)]; exact congrArg s (Fin.ext (by show 128 * 0 + k.val = k.val; omega))
theorem joined_quarter1 (s d e g : Fin 128 → EReal) (k : Fin 128) : joined s d e g (quarter 1 k) = d k := by
  unfold joined
  rw [dif_neg (by show ¬ 128 * 1 + k.val < 128; omega), dif_pos (by show 128 * 1 + k.val < 256; omega)]
  exact congrArg d (Fin.ext (by show 128 * 1 + k.val - 128 = k.val; omega))
theorem joined_quarter2 (s d e g : Fin 128 → EReal) (k : Fin 128) : joined s d e g (quarter 2 k) = e k := by
  unfold joined
  rw [dif_neg (by show ¬ 128 * 2 + k.val < 128; omega), dif_neg (by show ¬ 128 * 2 + k.val < 256; omega),
    dif_pos (by show 128 * 2 + k.val < 384; omega)]
  exact congrArg e (Fin.ext (by show 128 * 2 + k.val - 256 = k.val; omega))
theorem joined_quarter3 (s d e g : Fin 128 → EReal) (k : Fin 128) : joined s d e g (quarter 3 k) = g k := by
  unfold joined
  rw [dif_neg (by show ¬ 128 * 3 + k.val < 128; omega), dif_neg (by show ¬ 128 * 3 + k.val < 256; omega),
    dif_neg (by show ¬ 128 * 3 + k.val < 384; omega)]
  exact congrArg g (Fin.ext (by show 128 * 3 + k.val - 384 = k.val; omega))

/-- Contracting the joined row with the whole matrix is contracting each piece with its quarter of the rows. -/
theorem dense_joined (s d e g : Fin 128 → EReal) (W : Fin 512 → Fin 128 → EReal) (b : Fin 128 → EReal) (q : Fin 128) :
    dense (joined s d e g) W b q = dense4 s d e g W q + b q := by
  unfold dense dense4
  rw [sum_quarters]
  simp only [joined_quarter0, joined_quarter1, joined_quarter2, joined_quarter3]

/-! ## Which row of the table an index reads -/

/-- An index as the reference reads it: a negative one counts from the end of the 64 rows. -/
def wrapIdx (b : BitVec 32) : BitVec 32 := Scalar.select (IntOp.cmpi .slt b 0#32) (IntOp.addi b 64#32) b
/-- The row it reads: the wrapped index, signed, clamped into the table. -/
def graphRow (b : BitVec 32) : Fin 64 := ⟨min (wrapIdx b).toInt.toNat 63, by omega⟩
/-- The 0/1 weight the kernel gives row j for index b: the word of the comparison b = j, widened, as a number. -/
def hot (b : BitVec 32) (j : Fin 64) : EReal := ((((IntOp.cmpi .eq b (BitVec.ofNat 32 j.val)).setWidth 32).toInt : ℝ) : EReal)

/-- An index in range is its own row. -/
theorem graphRow_val {b : BitVec 32} (h0 : 0 ≤ b.toInt) (h1 : b.toInt < 64) : (graphRow b).val = b.toInt.toNat := by
  have hs : IntOp.cmpi .slt b 0#32 = 0#1 := by
    unfold IntOp.cmpi
    have : b.slt 0#32 = false := by
      simp only [BitVec.slt, decide_eq_false_iff_not, not_lt]
      simpa using h0
    rw [this]; rfl
  have hw : wrapIdx b = b := by unfold wrapIdx; rw [hs]; exact select_zero _ _
  show min (wrapIdx b).toInt.toNat 63 = _
  rw [hw]; omega

/-- The weight is 1 at the index's own row and 0 elsewhere. -/
theorem hot_eq {b : BitVec 32} (h0 : 0 ≤ b.toInt) (h1 : b.toInt < 64) (j : Fin 64) :
    hot b j = if j = graphRow b then 1 else 0 := by
  have hb : b.toNat = b.toInt.toNat := by
    have := BitVec.toInt_eq_toNat_cond b
    have hlt := b.isLt
    split_ifs at this <;> omega
  have hj : j.val < 2 ^ 32 := lt_trans j.isLt (by norm_num)
  unfold hot
  by_cases hjb : j = graphRow b
  · have e : b = BitVec.ofNat 32 j.val := by
      apply BitVec.eq_of_toNat_eq
      rw [BitVec.toNat_ofNat, Nat.mod_eq_of_lt hj, hjb, graphRow_val h0 h1, hb]
    have hc : IntOp.cmpi .eq b (BitVec.ofNat 32 j.val) = 1#1 := by
      unfold IntOp.cmpi; rw [← e]; simp
    rw [hc, if_pos hjb]
    norm_num
  · have hc : IntOp.cmpi .eq b (BitVec.ofNat 32 j.val) = 0#1 := by
      unfold IntOp.cmpi
      have hne : (b == BitVec.ofNat 32 j.val) = false := by
        rw [beq_eq_false_iff_ne]
        intro e
        apply hjb
        apply Fin.ext
        rw [graphRow_val h0 h1, ← hb, e, BitVec.toNat_ofNat, Nat.mod_eq_of_lt hj]
      rw [hne]; rfl
    rw [hc, if_neg hjb]
    norm_num

/-- The weighted sum over all rows of the table is the index's own row, whatever the entries are. -/
theorem pick_row {b : BitVec 32} (h0 : 0 ≤ b.toInt) (h1 : b.toInt < 64) (u : Fin 64 → EReal) :
    ∑ j : Fin 64, hot b j * u j = u (graphRow b) := by
  rw [Finset.sum_eq_single (graphRow b)]
  · rw [hot_eq h0 h1, if_pos rfl, one_mul]
  · intro j _ hj; rw [hot_eq h0 h1, if_neg hj, zero_mul]
  · intro h; exact absurd (Finset.mem_univ _) h

/-! ## The network on one edge -/

/-- The three layers on a row of 512. -/
def net (c : Fin 512 → EReal) (W0 : Fin 512 → Fin 128 → EReal) (b0 m0 v0 g0 be0 : Fin 128 → EReal)
    (W1 : Fin 128 → Fin 128 → EReal) (b1 m1 v1 g1 be1 : Fin 128 → EReal)
    (W2 : Fin 128 → Fin 128 → EReal) (b2 m2 v2 g2 be2 : Fin 128 → EReal) : Fin 128 → EReal :=
  layer (layer (layer c W0 b0 m0 v0 g0 be0) W1 b1 m1 v1 g1 be1) W2 b2 m2 v2 g2 be2

/-- The same with the first linear map taken quarter by quarter. -/
def net4 (s d e g : Fin 128 → EReal) (W0 : Fin 512 → Fin 128 → EReal) (b0 m0 v0 g0 be0 : Fin 128 → EReal)
    (W1 : Fin 128 → Fin 128 → EReal) (b1 m1 v1 g1 be1 : Fin 128 → EReal)
    (W2 : Fin 128 → Fin 128 → EReal) (b2 m2 v2 g2 be2 : Fin 128 → EReal) : Fin 128 → EReal :=
  layer (layer (fun k => scale (shift (dense4 s d e g W0 k + b0 k) (m0 k)) (v0 k) (g0 k) (be0 k)) W1 b1 m1 v1 g1 be1)
    W2 b2 m2 v2 g2 be2

theorem net_joined (s d e g : Fin 128 → EReal) (W0 : Fin 512 → Fin 128 → EReal) (b0 m0 v0 g0 be0 : Fin 128 → EReal)
    (W1 : Fin 128 → Fin 128 → EReal) (b1 m1 v1 g1 be1 : Fin 128 → EReal)
    (W2 : Fin 128 → Fin 128 → EReal) (b2 m2 v2 g2 be2 : Fin 128 → EReal) :
    net (joined s d e g) W0 b0 m0 v0 g0 be0 W1 b1 m1 v1 g1 be1 W2 b2 m2 v2 g2 be2
      = net4 s d e g W0 b0 m0 v0 g0 be0 W1 b1 m1 v1 g1 be1 W2 b2 m2 v2 g2 be2 := by
  unfold net net4
  congr 2
  funext k
  unfold layer
  rw [dense_joined]

/-! ## The whole arrays -/

abbrev SE : Shape := ⟨2, ![500000, 128]⟩
abbrev SU : Shape := ⟨2, ![64, 128]⟩
abbrev SB : Shape := ⟨1, ![500000]⟩
abbrev SW0 : Shape := ⟨2, ![512, 128]⟩
abbrev SW : Shape := ⟨2, ![128, 128]⟩
abbrev SV : Shape := ⟨1, ![128]⟩

/-- A matrix by rows and columns, a vector by entries. -/
abbrev mat {n : Nat} (W : (⟨2, ![n, 128]⟩ : Shape).Idx → EReal) : Fin n → Fin 128 → EReal := fun k d => W (ix2 k d)
abbrev vec (x : SV.Idx → EReal) : Fin 128 → EReal := fun d => x (ix1 d)

/-- The joined row of edge r. -/
def edgeRow (src dst att : SE.Idx → EReal) (u : SU.Idx → EReal) (batch : SB.Idx → BitVec 32) (r : Fin 500000) : Fin 512 → EReal :=
  joined (fun k => src (ix2 r k)) (fun k => dst (ix2 r k)) (fun k => att (ix2 r k))
    (fun k => u (ix2 (graphRow (batch (ix1 r))) k))

/-- Entry (r, d) of the result: the network on edge r's joined row. -/
def outAt (src dst att : SE.Idx → EReal) (u : SU.Idx → EReal) (batch : SB.Idx → BitVec 32)
    (W0 : SW0.Idx → EReal) (b0 : SV.Idx → EReal) (W1 : SW.Idx → EReal) (b1 : SV.Idx → EReal) (W2 : SW.Idx → EReal) (b2 : SV.Idx → EReal)
    (g0 be0 m0 v0 g1 be1 m1 v1 g2 be2 m2 v2 : SV.Idx → EReal) (r : Fin 500000) (d : Fin 128) : EReal :=
  net (edgeRow src dst att u batch r) (mat W0) (vec b0) (vec m0) (vec v0) (vec g0) (vec be0)
    (mat W1) (vec b1) (vec m1) (vec v1) (vec g1) (vec be1) (mat W2) (vec b2) (vec m2) (vec v2) (vec g2) (vec be2) d

/-- The result array as one function of the 23 argument arrays, in the order both programs take them. -/
def out (src dst att : SE.Idx → EReal) (u : SU.Idx → EReal) (batch : SB.Idx → BitVec 32)
    (W0 : SW0.Idx → EReal) (b0 : SV.Idx → EReal) (W1 : SW.Idx → EReal) (b1 : SV.Idx → EReal) (W2 : SW.Idx → EReal) (b2 : SV.Idx → EReal)
    (g0 be0 m0 v0 g1 be1 m1 v1 g2 be2 m2 v2 : SV.Idx → EReal) : SE.Idx → EReal :=
  fun i => outAt src dst att u batch W0 b0 W1 b1 W2 b2 g0 be0 m0 v0 g1 be1 m1 v1 g2 be2 m2 v2
    ⟨(i 0).val, idx2_lt0 i⟩ ⟨(i 1).val, idx2_lt1 i⟩

theorem out_apply (src dst att : SE.Idx → EReal) (u : SU.Idx → EReal) (batch : SB.Idx → BitVec 32)
    (W0 : SW0.Idx → EReal) (b0 : SV.Idx → EReal) (W1 : SW.Idx → EReal) (b1 : SV.Idx → EReal) (W2 : SW.Idx → EReal) (b2 : SV.Idx → EReal)
    (g0 be0 m0 v0 g1 be1 m1 v1 g2 be2 m2 v2 : SV.Idx → EReal) (r : Fin 500000) (d : Fin 128) :
    out src dst att u batch W0 b0 W1 b1 W2 b2 g0 be0 m0 v0 g1 be1 m1 v1 g2 be2 m2 v2 (ix2 r d)
      = outAt src dst att u batch W0 b0 W1 b1 W2 b2 g0 be0 m0 v0 g1 be1 m1 v1 g2 be2 m2 v2 r d := rfl

end Cert.EdgeNet

end
-- ==== Proof.Body.lean ====
/-
  The kernel body's values at an entry: its products as sums over the contracted axis, its row and column broadcasts read
  at an index, and from these the whole output block entry by entry.
-/
import proofs.«416180_j62689342653097_1_alg».proof.Proof.Gen.KernelIdeal.Value
import proofs.«416180_j62689342653097_1_alg».proof.Proof.Spec
import Idealize.ShloMosaic.Lib.Pipeline.Value
import Idealize.ShloMosaic.Lib.ValueIdx
import Idealize.ShloMosaic.PureOps.Ideal.Laws

noncomputable section
namespace Cert.EdgeNet.Body
open Idealize.ShloMosaic Idealize.ShloMosaic.ValueIdx Cert.KernelIdeal Cert.KernelIdeal.Gen

abbrev D128 := dot_S2000x128_S128x128_S2000x128_1_0_0_1_n_n
abbrev D64 := dot_S2000x64_S64x128_S2000x128_1_0_0_1_n_n

theorem lhs128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a 2000 × 128 block with a 128 × 128 matrix into a zero accumulator, at an entry. -/
theorem mm128_apply {φ₁ φ₂ : FTy} (A : FVec Ideal S2000x128 φ₁) (B : FVec Ideal S128x128 φ₂) (p : Fin 2000) (q : Fin 128) :
    matmul dot_S2000x128_S128x128_S2000x128_1_0_0_1_n_n none A B (constant S2000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

theorem rowB_apply {φ : FTy} (x : FVec Ideal S1x128 φ) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => by show (0 : Nat) = (if (1 : Nat) = 1 then 0 else p.val); rw [if_pos rfl]
    | ⟨1, _⟩ => by show q.val = (if (128 : Nat) = 1 then 0 else q.val); rw [if_neg (by decide)])

theorem colB_apply (x : IVec S2000x1 32) (p : Fin 2000) (j : Fin 64) :
    broadcastTo S2000x64 x broadcasts_S2000x1_S2000x64 (ix2 p j) = x (ix2 p (0 : Fin 1)) :=
  broadcastTo_apply x broadcasts_S2000x1_S2000x64 (ix2 p j) (ix2 p (0 : Fin 1)) (fun a => match a with
    | ⟨0, _⟩ => by show p.val = (if (2000 : Nat) = 1 then 0 else p.val); rw [if_neg (by decide)]
    | ⟨1, _⟩ => by show (0 : Nat) = (if (1 : Nat) = 1 then 0 else j.val); rw [if_pos rfl])

theorem iota_apply (p : Fin 2000) (j : Fin 64) :
    iota .tc S2000x64 32 [1] iota_S2000x64_d1_w32 (ix2 p j) = BitVec.ofNat 32 j.val :=
  iota_single_apply .tc S2000x64 32 1 iota_S2000x64_d1_w32 (ix2 p j)

theorem lhs64_0 (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs64_1 (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
theorem rhs64_0 (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
theorem rhs64_1 (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- A product of a 2000 × 64 block with a 64 × 128 matrix into a zero accumulator, at an entry. -/
theorem mm64_apply {φ₁ φ₂ : FTy} (A : FVec Ideal S2000x64 φ₁) (B : FVec Ideal S64x128 φ₂) (p : Fin 2000) (q : Fin 128) :
    matmul dot_S2000x64_S64x128_S2000x128_1_0_0_1_n_n none A B (constant S2000x128 .f32 0x00000000#32) (ix2 p q)
      = ∑ j : Fin 64, A (ix2 p j) * B (ix2 j q) := by
  simp only [matmul]
  rw [Ideal.matmul_constant_zero_apply, ← Equiv.sum_comp (ValueIdx.contrEquiv1 dot_S2000x64_S64x128_S2000x128_1_0_0_1_n_n 64 rfl rfl).symm]
  refine Finset.sum_congr rfl fun k _ => ?_
  have hk := ValueIdx.contrEquiv1_symm_val dot_S2000x64_S64x128_S2000x128_1_0_0_1_n_n 64 rfl rfl k
  have el : dot_S2000x64_S64x128_S2000x128_1_0_0_1_n_n.lhsIdx (ix2 p q) ((ValueIdx.contrEquiv1 dot_S2000x64_S64x128_S2000x128_1_0_0_1_n_n 64 rfl rfl).symm k) = ix2 p k := funext fun a => Fin.ext (by
    match a with
    | ⟨0, _⟩ => exact lhs64_0 _ _
    | ⟨1, _⟩ => exact (lhs64_1 _ _).trans hk)
  have er : dot_S2000x64_S64x128_S2000x128_1_0_0_1_n_n.rhsIdx (ix2 p q) ((ValueIdx.contrEquiv1 dot_S2000x64_S64x128_S2000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- A row vector of the block's shape [1, 128], by entries. -/
abbrev row (x : Vec Ideal S1x128 .f32) : Fin 128 → EReal := fun d => x (ix2 (0 : Fin 1) d)

/-- A [1, 128] row, recast to its own shape and spread over the 2000 rows, at an entry. -/
theorem rowS_apply {φ : FTy} (x : FVec Ideal S1x128 φ) (p : Fin 2000) (q : Fin 128) :
    broadcastTo S2000x128 (shapeCast S1x128 x shapeCasts_S1x128_S1x128) broadcasts_S1x128_S2000x128 (ix2 p q) = x (ix2 (0 : Fin 1) q) := by
  rw [rowB_apply, shapeCast_self]

/-- The inverse square root of a vector, at an entry. -/
theorem vrsqrt_apply {s : Shape} {φ : FTy} (a : FVec Ideal s φ) (i : s.Idx) : rsqrt a i = Ideal.rsqrt (a i) := rfl

/-- The 0/1 weight the body gives table row j on block row p: the comparison of the row's index with j, as a number. -/
theorem onehot_apply (P0 : Vec Ideal S2000x1 .i32) (p : Fin 2000) (j : Fin 64) :
    (sitofp .f32 (extui 32 (cmpi .eq (broadcastTo S2000x64 (shapeCast S2000x1 P0 shapeCasts_S2000x1_S2000x1) broadcasts_S2000x1_S2000x64)
      (iota .tc S2000x64 32 [1] iota_S2000x64_d1_w32)) natLt_1_32) : FVec Ideal S2000x64 .f32) (ix2 p j)
      = hot (P0 (ix2 p (0 : Fin 1))) j := by
  have e1 : broadcastTo S2000x64 (shapeCast S2000x1 P0 shapeCasts_S2000x1_S2000x1) broadcasts_S2000x1_S2000x64 (ix2 p j)
      = P0 (ix2 p (0 : Fin 1)) := by
    rw [colB_apply, shapeCast_self]
  have e2 := iota_apply p j
  show ((((IntOp.cmpi .eq (broadcastTo S2000x64 (shapeCast S2000x1 P0 shapeCasts_S2000x1_S2000x1) broadcasts_S2000x1_S2000x64 (ix2 p j))
      (iota .tc S2000x64 32 [1] iota_S2000x64_d1_w32 (ix2 p j))).setWidth 32).toInt : ℝ) : EReal) = _
  rw [e1, e2]
  rfl

/-- The first linear map as the body computes it: four products of 128-wide pieces with their quarters of the matrix, the
    fourth piece itself the product of the 0/1 weights with the table. -/
theorem pay2_apply (P0 : Vec Ideal S2000x1 .i32) (P1 : Vec Ideal S64x128 .f32) (P2 P3 P4 : Vec Ideal S2000x128 .f32)
    (P5 P6 P7 P8 : Vec Ideal S128x128 .f32) (W0 : Fin 512 → Fin 128 → EReal)
    (h5 : ∀ (k d : Fin 128), P5 (ix2 k d) = W0 (quarter 0 k) d) (h6 : ∀ (k d : Fin 128), P6 (ix2 k d) = W0 (quarter 1 k) d)
    (h7 : ∀ (k d : Fin 128), P7 (ix2 k d) = W0 (quarter 2 k) d) (h8 : ∀ (k d : Fin 128), P8 (ix2 k d) = W0 (quarter 3 k) d)
    (p : Fin 2000) (q : Fin 128) :
    k0_pay2 (F := Ideal) P0 P1 P2 P3 P4 P5 P6 P7 P8 (ix2 p q)
      = dense4 (fun k => P2 (ix2 p k)) (fun k => P3 (ix2 p k)) (fun k => P4 (ix2 p k))
          (fun k => ∑ j : Fin 64, hot (P0 (ix2 p (0 : Fin 1))) j * P1 (ix2 j k)) W0 q := by
  unfold k0_pay2 dense4
  dsimp only
  refine congrArg₂ (· + ·) (congrArg₂ (· + ·) (congrArg₂ (· + ·) ?_ ?_) ?_) ?_
  · exact (mm128_apply _ _ p q).trans (Finset.sum_congr rfl fun k _ => congrArg₂ (· * ·) rfl (h5 k q))
  · exact (mm128_apply _ _ p q).trans (Finset.sum_congr rfl fun k _ => congrArg₂ (· * ·) rfl (h6 k q))
  · exact (mm128_apply _ _ p q).trans (Finset.sum_congr rfl fun k _ => congrArg₂ (· * ·) rfl (h7 k q))
  · refine (mm128_apply _ _ p q).trans (Finset.sum_congr rfl fun k _ => congrArg₂ (· * ·) ?_ (h8 k q))
    exact (mm64_apply _ _ p k).trans (Finset.sum_congr rfl fun j _ => congrArg₂ (· * ·) (onehot_apply P0 p j) rfl)

/-- The rest of the first layer and the second layer's linear map, rectifier and shift. -/
theorem pay3_apply (v32 : FVec Ideal S2000x128 .f32) (P9 P10 P11 P12 P13 : Vec Ideal S1x128 .f32) (P14 : Vec Ideal S128x128 .f32)
    (P15 P16 : Vec Ideal S1x128 .f32) (p : Fin 2000) (q : Fin 128) :
    k0_pay3 (F := Ideal) v32 P9 P10 P11 P12 P13 P14 P15 P16 (ix2 p q)
      = shift (dense (fun k => scale (shift (v32 (ix2 p k) + row P9 k) (row P10 k)) (row P11 k) (row P12 k) (row P13 k))
          (fun k d => P14 (ix2 k d)) (row P15) q) (row P16 q) := by
  unfold k0_pay3
  simp only [subf_apply, addf_apply, mulf_apply, maximumf_apply, broadcast_apply, truncf_apply, vrsqrt_apply, rowS_apply, rowB_apply,
    shapeCast_self, mm128_apply]
  rfl

/-- The rest of the second layer and the third layer up to its gain. -/
theorem pay5_apply (v71 : FVec Ideal S2000x128 .f32) (v73 : FVec Ideal S1x128 .f32) (P18 P19 : Vec Ideal S1x128 .f32)
    (P20 : Vec Ideal S128x128 .f32) (P21 P22 P23 P24 : Vec Ideal S1x128 .f32) (p : Fin 2000) (q : Fin 128) :
    k0_pay5 (F := Ideal) v71 v73 P18 P19 P20 P21 P22 P23 P24 (ix2 p q)
      = shift (dense (fun k => scale (v71 (ix2 p k)) (v73 (ix2 (0 : Fin 1) k)) (row P18 k) (row P19 k))
          (fun k d => P20 (ix2 k d)) (row P21) q) (row P22 q) * Ideal.rsqrt (row P23 q + epsW) * row P24 q := by
  unfold k0_pay5
  simp only [subf_apply, addf_apply, mulf_apply, maximumf_apply, broadcast_apply, truncf_apply, vrsqrt_apply, rowS_apply, rowB_apply,
    shapeCast_self, mm128_apply]
  rfl

/-- Entry (p, q) of what a grid point leaves in its output block, as a function of the values the body loads: the network
    with its first linear map taken quarter by quarter, on row p of the three edge blocks and on the weighted sum of the
    table's rows; the four loaded quarters of the first matrix are the quarters of one matrix W0 of 512 rows. -/
theorem E23_eq (P0 : Vec Ideal S2000x1 .i32) (P1 : Vec Ideal S64x128 .f32) (P2 P3 P4 : Vec Ideal S2000x128 .f32)
    (P5 P6 P7 P8 : Vec Ideal S128x128 .f32) (P9 P10 P11 P12 P13 : Vec Ideal S1x128 .f32) (P14 : Vec Ideal S128x128 .f32)
    (P15 P16 P17 P18 P19 : Vec Ideal S1x128 .f32) (P20 : Vec Ideal S128x128 .f32) (P21 P22 P23 P24 P25 : Vec Ideal S1x128 .f32)
    (W0 : Fin 512 → Fin 128 → EReal)
    (h5 : ∀ (k d : Fin 128), P5 (ix2 k d) = W0 (quarter 0 k) d) (h6 : ∀ (k d : Fin 128), P6 (ix2 k d) = W0 (quarter 1 k) d)
    (h7 : ∀ (k d : Fin 128), P7 (ix2 k d) = W0 (quarter 2 k) d) (h8 : ∀ (k d : Fin 128), P8 (ix2 k d) = W0 (quarter 3 k) d)
    (p : Fin 2000) (q : Fin 128) :
    Cert.KernelIdeal.Value.E23 (F := Ideal) P0 P1 P2 P3 P4 P5 P6 P7 P8 P9 P10 P11 P12 P13 P14 P15 P16 P17 P18 P19 P20 P21 P22 P23 P24 P25 (ix2 p q)
      = net4 (fun k => P2 (ix2 p k)) (fun k => P3 (ix2 p k)) (fun k => P4 (ix2 p k))
          (fun k => ∑ j : Fin 64, hot (P0 (ix2 p (0 : Fin 1))) j * P1 (ix2 j k)) W0
          (row P9) (row P10) (row P11) (row P12) (row P13) (fun k d => P14 (ix2 k d)) (row P15) (row P16) (row P17) (row P18) (row P19)
          (fun k d => P20 (ix2 k d)) (row P21) (row P22) (row P23) (row P24) (row P25) q := by
  have e0 : Cert.KernelIdeal.Value.ix23_0 (ix2 p q) = ix2 p q :=
    funext fun a => match a with | ⟨0, _⟩ => rfl | ⟨1, _⟩ => rfl
  have e1 : Cert.KernelIdeal.Value.ix23_1 (ix2 p q) = ix2 (0 : Fin 1) q :=
    funext fun a => match a with | ⟨0, _⟩ => rfl | ⟨1, _⟩ => rfl
  show (k0_pay5 (F := Ideal) (k0_pay3 (k0_pay2 P0 P1 P2 P3 P4 P5 P6 P7 P8) P9 P10 P11 P12 P13 P14 P15 P16)
      (shapeCast S1x128 P17 shapeCasts_S1x128_S1x128) P18 P19 P20 P21 P22 P23 P24 (Cert.KernelIdeal.Value.ix23_0 (ix2 p q)))
      + P25 (Cert.KernelIdeal.Value.ix23_1 (ix2 p q)) = _
  rw [e0, e1, pay5_apply]
  simp only [pay3_apply, pay2_apply P0 P1 P2 P3 P4 P5 P6 P7 P8 W0 h5 h6 h7 h8, shapeCast_self]
  rfl

end Cert.EdgeNet.Body
end
-- ==== Proof.Blocks.lean ====
/-
  The kernel's result array, block by block.  Grid point t works on rows 2000·t … 2000·t + 1999 of the three edge arrays
  and of the index column, and on the whole of every other array; what it writes back is rows 2000·t … of the network's
  result, and the 250 blocks cover the 500000 rows.
-/
import proofs.«416180_j62689342653097_1_alg».proof.Proof.Gen.KernelIdeal.Value
import proofs.«416180_j62689342653097_1_alg».proof.Proof.Spec
import proofs.«416180_j62689342653097_1_alg».proof.Proof.Body
import Idealize.ShloMosaic.Lib.Pipeline.Value
import Idealize.ShloMosaic.Lib.ValueIdx
import Idealize.ShloMosaic.Lib.StableHlo.Run

noncomputable section

namespace Cert.EdgeNet.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a rank-2 block, however spelt. -/
theorem hz : (![0, 0] : Fin 2 → Nat) = fun _ => 0 := funext fun a => by fin_cases a <;> rfl

/-- The grid has 250 points. -/
theorem pt_lt (t : Fin cfg0.N) : t.val < 250 := lt_of_lt_of_eq t.isLt N_0

/-- Row 2000·t + p of the 500000 rows: row p of grid point t's block. -/
abbrev rowOf (t : Fin cfg0.N) (p : Fin 2000) : Fin 500000 :=
  ⟨2000 * t.val + p.val, by have h := pt_lt t; have hp := p.isLt; omega⟩

/-! ## The printed index maps, decided over the 250 grid points

The three edge arrays, the index column and the result move with the point on axis 0; every other window stays at its one
block. -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx23 : ∀ t : Fin cfg0.N, win0_23.index t (0 : Fin 2) = t.val ∧ win0_23.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

theorem idx16 : ∀ t : Fin cfg0.N, win0_16.index t (0 : Fin 2) = 0 ∧ win0_16.index t (1 : Fin 2) = 0 :=
  (by decide +kernel : ∀ t : Fin grid0.N, _)

theorem idx17 : ∀ t : Fin cfg0.N, win0_17.index t (0 : Fin 2) = 0 ∧ win0_17.index t (1 : Fin 2) = 0 :=
  (by decide +kernel : ∀ t : Fin grid0.N, _)

theorem idx18 : ∀ t : Fin cfg0.N, win0_18.index t (0 : Fin 2) = 0 ∧ win0_18.index t (1 : Fin 2) = 0 :=
  (by decide +kernel : ∀ t : Fin grid0.N, _)

theorem idx19 : ∀ t : Fin cfg0.N, win0_19.index t (0 : Fin 2) = 0 ∧ win0_19.index t (1 : Fin 2) = 0 :=
  (by decide +kernel : ∀ t : Fin grid0.N, _)

theorem idx20 : ∀ t : Fin cfg0.N, win0_20.index t (0 : Fin 2) = 0 ∧ win0_20.index t (1 : Fin 2) = 0 :=
  (by decide +kernel : ∀ t : Fin grid0.N, _)

theorem idx21 : ∀ t : Fin cfg0.N, win0_21.index t (0 : Fin 2) = 0 ∧ win0_21.index t (1 : Fin 2) = 0 :=
  (by decide +kernel : ∀ t : Fin grid0.N, _)

theorem idx22 : ∀ t : Fin cfg0.N, win0_22.index t (0 : Fin 2) = 0 ∧ win0_22.index t (1 : Fin 2) = 0 :=
  (by decide +kernel : ∀ t : Fin grid0.N, _)

/-! ## The arrays the host reshapes before the region

The index column is the graph indices recast from [500000] to [500000, 1]; each bias, gain, offset, mean and variance row is
its vector recast from [128] to [1, 128]. -/

/-- The index column as the region finds it. -/
theorem V_col (c : Dev nD) : (V m c main_v0 : S500000x1.Idx → BitVec 32)
    = shapeCast S500000x1 ((m ((c : Thread nD τ).loc main_arg4)) : S500000.Idx → BitVec 32) shapeCasts_S500000_S500000x1 := by
  dsimp only [Gen.V, Gen.hostOps0]; after_results; rfl

/-- The row b0 as the region finds it. -/
theorem V_b0 (c : Dev nD) : (V m c main_v1 : S1x128.Idx → EReal)
    = shapeCast S1x128 ((m ((c : Thread nD τ).loc main_arg6)) : S128.Idx → EReal) shapeCasts_S128_S1x128 := by
  dsimp only [Gen.V, Gen.hostOps0]; after_results; rfl

/-- The row b1 as the region finds it. -/
theorem V_b1 (c : Dev nD) : (V m c main_v2 : S1x128.Idx → EReal)
    = shapeCast S1x128 ((m ((c : Thread nD τ).loc main_arg8)) : S128.Idx → EReal) shapeCasts_S128_S1x128 := by
  dsimp only [Gen.V, Gen.hostOps0]; after_results; rfl

/-- The row b2 as the region finds it. -/
theorem V_b2 (c : Dev nD) : (V m c main_v3 : S1x128.Idx → EReal)
    = shapeCast S1x128 ((m ((c : Thread nD τ).loc main_arg10)) : S128.Idx → EReal) shapeCasts_S128_S1x128 := by
  dsimp only [Gen.V, Gen.hostOps0]; after_results; rfl

/-- The row g0 as the region finds it. -/
theorem V_g0 (c : Dev nD) : (V m c main_v4 : S1x128.Idx → EReal)
    = shapeCast S1x128 ((m ((c : Thread nD τ).loc main_arg11)) : S128.Idx → EReal) shapeCasts_S128_S1x128 := by
  dsimp only [Gen.V, Gen.hostOps0]; after_results; rfl

/-- The row be0 as the region finds it. -/
theorem V_be0 (c : Dev nD) : (V m c main_v5 : S1x128.Idx → EReal)
    = shapeCast S1x128 ((m ((c : Thread nD τ).loc main_arg12)) : S128.Idx → EReal) shapeCasts_S128_S1x128 := by
  dsimp only [Gen.V, Gen.hostOps0]; after_results; rfl

/-- The row m0 as the region finds it. -/
theorem V_m0 (c : Dev nD) : (V m c main_v6 : S1x128.Idx → EReal)
    = shapeCast S1x128 ((m ((c : Thread nD τ).loc main_arg13)) : S128.Idx → EReal) shapeCasts_S128_S1x128 := by
  dsimp only [Gen.V, Gen.hostOps0]; after_results; rfl

/-- The row v0 as the region finds it. -/
theorem V_v0 (c : Dev nD) : (V m c main_v7 : S1x128.Idx → EReal)
    = shapeCast S1x128 ((m ((c : Thread nD τ).loc main_arg14)) : S128.Idx → EReal) shapeCasts_S128_S1x128 := by
  dsimp only [Gen.V, Gen.hostOps0]; after_results; rfl

/-- The row g1 as the region finds it. -/
theorem V_g1 (c : Dev nD) : (V m c main_v8 : S1x128.Idx → EReal)
    = shapeCast S1x128 ((m ((c : Thread nD τ).loc main_arg15)) : S128.Idx → EReal) shapeCasts_S128_S1x128 := by
  dsimp only [Gen.V, Gen.hostOps0]; after_results; rfl

/-- The row be1 as the region finds it. -/
theorem V_be1 (c : Dev nD) : (V m c main_v9 : S1x128.Idx → EReal)
    = shapeCast S1x128 ((m ((c : Thread nD τ).loc main_arg16)) : S128.Idx → EReal) shapeCasts_S128_S1x128 := by
  dsimp only [Gen.V, Gen.hostOps0]; after_results; rfl

/-- The row m1 as the region finds it. -/
theorem V_m1 (c : Dev nD) : (V m c main_v10 : S1x128.Idx → EReal)
    = shapeCast S1x128 ((m ((c : Thread nD τ).loc main_arg17)) : S128.Idx → EReal) shapeCasts_S128_S1x128 := by
  dsimp only [Gen.V, Gen.hostOps0]; after_results; rfl

/-- The row v1 as the region finds it. -/
theorem V_v1 (c : Dev nD) : (V m c main_v11 : S1x128.Idx → EReal)
    = shapeCast S1x128 ((m ((c : Thread nD τ).loc main_arg18)) : S128.Idx → EReal) shapeCasts_S128_S1x128 := by
  dsimp only [Gen.V, Gen.hostOps0]; after_results; rfl

/-- The row g2 as the region finds it. -/
theorem V_g2 (c : Dev nD) : (V m c main_v12 : S1x128.Idx → EReal)
    = shapeCast S1x128 ((m ((c : Thread nD τ).loc main_arg19)) : S128.Idx → EReal) shapeCasts_S128_S1x128 := by
  dsimp only [Gen.V, Gen.hostOps0]; after_results; rfl

/-- The row be2 as the region finds it. -/
theorem V_be2 (c : Dev nD) : (V m c main_v13 : S1x128.Idx → EReal)
    = shapeCast S1x128 ((m ((c : Thread nD τ).loc main_arg20)) : S128.Idx → EReal) shapeCasts_S128_S1x128 := by
  dsimp only [Gen.V, Gen.hostOps0]; after_results; rfl

/-- The row m2 as the region finds it. -/
theorem V_m2 (c : Dev nD) : (V m c main_v14 : S1x128.Idx → EReal)
    = shapeCast S1x128 ((m ((c : Thread nD τ).loc main_arg21)) : S128.Idx → EReal) shapeCasts_S128_S1x128 := by
  dsimp only [Gen.V, Gen.hostOps0]; after_results; rfl

/-- The row v2 as the region finds it. -/
theorem V_v2 (c : Dev nD) : (V m c main_v15 : S1x128.Idx → EReal)
    = shapeCast S1x128 ((m ((c : Thread nD τ).loc main_arg22)) : S128.Idx → EReal) shapeCasts_S128_S1x128 := by
  dsimp only [Gen.V, Gen.hostOps0]; after_results; rfl

/-- A vector [128] recast as a row [1, 128], read at column d. -/
theorem cast_row {α : Type} (x : S128.Idx → α) (i : S1x128.Idx) (d : Fin 128) (hi : (i 1).val = d.val) :
    shapeCast S1x128 x shapeCasts_S128_S1x128 i = x (ix1 d) :=
  shapeCast_apply x shapeCasts_S128_S1x128 i (ix1 d) (by
    rw [Shape.rowMajor_val_one, Shape.rowMajor_val_two]
    have h0 : (i 0).val < 1 := (i 0).isLt
    show d.val = (i 0).val * 128 + (i 1).val
    omega)

/-- A vector [500000] recast as a column [500000, 1], read at row r. -/
theorem cast_col {α : Type} (x : S500000.Idx → α) (i : S500000x1.Idx) (r : Fin 500000) (hi : (i 0).val = r.val) :
    shapeCast S500000x1 x shapeCasts_S500000_S500000x1 i = x (ix1 r) :=
  shapeCast_apply x shapeCasts_S500000_S500000x1 i (ix1 r) (by
    rw [Shape.rowMajor_val_one, Shape.rowMajor_val_two]
    have h1 : (i 1).val < 1 := (i 1).isLt
    show r.val = (i 0).val * 1 + (i 1).val
    omega)

/-! ## Each window's block at a grid point, entry by entry

A block's coordinate in its array is the block index times the block's size plus the coordinate inside the block. -/

/-- Row p of point t's block of src is row 2000·t + p of the array. -/
theorem blk_src (c : Dev nD) (t : Fin cfg0.N) (p : Fin 2000) (k : Fin 128) :
    (iblk m c 0 t : Vec Ideal S2000x128 .f32) (ix2 p k) = ((m ((c : Thread nD τ).loc main_arg0)) : S500000x128.Idx → EReal) (ix2 (rowOf t p) k) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- Row p of point t's block of dst is row 2000·t + p of the array. -/
theorem blk_dst (c : Dev nD) (t : Fin cfg0.N) (p : Fin 2000) (k : Fin 128) :
    (iblk m c 1 t : Vec Ideal S2000x128 .f32) (ix2 p k) = ((m ((c : Thread nD τ).loc main_arg1)) : S500000x128.Idx → EReal) (ix2 (rowOf t p) k) := by
  obtain ⟨e0, e1⟩ := idx1 t
  unfold iblk
  rw [View.read_apply]
  show V m c main_arg1 _ = _
  rw [V_main_arg1]
  congr 1
  funext a
  apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- Row p of point t's block of att is row 2000·t + p of the array. -/
theorem blk_att (c : Dev nD) (t : Fin cfg0.N) (p : Fin 2000) (k : Fin 128) :
    (iblk m c 2 t : Vec Ideal S2000x128 .f32) (ix2 p k) = ((m ((c : Thread nD τ).loc main_arg2)) : S500000x128.Idx → EReal) (ix2 (rowOf t p) k) := by
  obtain ⟨e0, e1⟩ := idx2 t
  unfold iblk
  rw [View.read_apply]
  show V m c main_arg2 _ = _
  rw [V_main_arg2]
  congr 1
  funext a
  apply Fin.ext
  match a with
  | ⟨0, _⟩ => show win0_2.index t (0 : Fin 2) * 2000 + 1 * p.val = 2000 * t.val + p.val; rw [e0]; omega
  | ⟨1, _⟩ => show win0_2.index t (1 : Fin 2) * 128 + 1 * k.val = k.val; rw [e1]; omega

/-- Row p of point t's block of the index column is the graph index of edge 2000·t + p. -/
theorem blk_batch (c : Dev nD) (t : Fin cfg0.N) (p : Fin 2000) :
    (iblk m c 3 t : Vec Ideal S2000x1 .i32) (ix2 p (0 : Fin 1)) = ((m ((c : Thread nD τ).loc main_arg4)) : S500000.Idx → BitVec 32) (ix1 (rowOf t p)) := by
  obtain ⟨e0, e1⟩ := idx3 t
  unfold iblk
  rw [View.read_apply]
  show V m c main_v0 _ = _
  refine (congrFun (V_col m c) _).trans ?_
  refine cast_col _ _ (rowOf t p) ?_
  show win0_3.index t (0 : Fin 2) * 2000 + 1 * p.val = 2000 * t.val + p.val
  rw [e0]; omega

/-- The window of u is the whole array at every point. -/
theorem blk_u (c : Dev nD) (t : Fin cfg0.N) (j : Fin 64) (k : Fin 128) :
    (iblk m c 4 t : Vec Ideal S64x128 .f32) (ix2 j k) = ((m ((c : Thread nD τ).loc main_arg3)) : S64x128.Idx → EReal) (ix2 j k) := by
  obtain ⟨e0, e1⟩ := idx4 t
  unfold iblk
  rw [View.read_apply]
  show V m c main_arg3 _ = _
  rw [V_main_arg3]
  congr 1
  funext a
  apply Fin.ext
  match a with
  | ⟨0, _⟩ => show win0_4.index t (0 : Fin 2) * 64 + 1 * j.val = j.val; rw [e0]; omega
  | ⟨1, _⟩ => show win0_4.index t (1 : Fin 2) * 128 + 1 * k.val = k.val; rw [e1]; omega

/-- The window of W0 is the whole array at every point. -/
theorem blk_W0 (c : Dev nD) (t : Fin cfg0.N) (j : Fin 512) (k : Fin 128) :
    (iblk m c 5 t : Vec Ideal S512x128 .f32) (ix2 j k) = ((m ((c : Thread nD τ).loc main_arg5)) : S512x128.Idx → EReal) (ix2 j k) := by
  obtain ⟨e0, e1⟩ := idx5 t
  unfold iblk
  rw [View.read_apply]
  show V m c main_arg5 _ = _
  rw [V_main_arg5]
  congr 1
  funext a
  apply Fin.ext
  match a with
  | ⟨0, _⟩ => show win0_5.index t (0 : Fin 2) * 512 + 1 * j.val = j.val; rw [e0]; omega
  | ⟨1, _⟩ => show win0_5.index t (1 : Fin 2) * 128 + 1 * k.val = k.val; rw [e1]; omega

/-- The window of W1 is the whole array at every point. -/
theorem blk_W1 (c : Dev nD) (t : Fin cfg0.N) (j : Fin 128) (k : Fin 128) :
    (iblk m c 7 t : Vec Ideal S128x128 .f32) (ix2 j k) = ((m ((c : Thread nD τ).loc main_arg7)) : S128x128.Idx → EReal) (ix2 j k) := by
  obtain ⟨e0, e1⟩ := idx7 t
  unfold iblk
  rw [View.read_apply]
  show V m c main_arg7 _ = _
  rw [V_main_arg7]
  congr 1
  funext a
  apply Fin.ext
  match a with
  | ⟨0, _⟩ => show win0_7.index t (0 : Fin 2) * 128 + 1 * j.val = j.val; rw [e0]; omega
  | ⟨1, _⟩ => show win0_7.index t (1 : Fin 2) * 128 + 1 * k.val = k.val; rw [e1]; omega

/-- The window of W2 is the whole array at every point. -/
theorem blk_W2 (c : Dev nD) (t : Fin cfg0.N) (j : Fin 128) (k : Fin 128) :
    (iblk m c 9 t : Vec Ideal S128x128 .f32) (ix2 j k) = ((m ((c : Thread nD τ).loc main_arg9)) : S128x128.Idx → EReal) (ix2 j k) := by
  obtain ⟨e0, e1⟩ := idx9 t
  unfold iblk
  rw [View.read_apply]
  show V m c main_arg9 _ = _
  rw [V_main_arg9]
  congr 1
  funext a
  apply Fin.ext
  match a with
  | ⟨0, _⟩ => show win0_9.index t (0 : Fin 2) * 128 + 1 * j.val = j.val; rw [e0]; omega
  | ⟨1, _⟩ => show win0_9.index t (1 : Fin 2) * 128 + 1 * k.val = k.val; rw [e1]; omega

/-- The window of the row b0 is the whole row at every point, and the row is the vector. -/
theorem blk_b0 (c : Dev nD) (t : Fin cfg0.N) (d : Fin 128) :
    (iblk m c 6 t : Vec Ideal S1x128 .f32) (ix2 (0 : Fin 1) d) = ((m ((c : Thread nD τ).loc main_arg6)) : S128.Idx → EReal) (ix1 d) := by
  obtain ⟨e0, e1⟩ := idx6 t
  unfold iblk
  rw [View.read_apply]
  show V m c main_v1 _ = _
  refine (congrFun (V_b0 m c) _).trans ?_
  refine cast_row _ _ d ?_
  show win0_6.index t (1 : Fin 2) * 128 + 1 * d.val = d.val
  rw [e1]; omega

/-- The window of the row b1 is the whole row at every point, and the row is the vector. -/
theorem blk_b1 (c : Dev nD) (t : Fin cfg0.N) (d : Fin 128) :
    (iblk m c 8 t : Vec Ideal S1x128 .f32) (ix2 (0 : Fin 1) d) = ((m ((c : Thread nD τ).loc main_arg8)) : S128.Idx → EReal) (ix1 d) := by
  obtain ⟨e0, e1⟩ := idx8 t
  unfold iblk
  rw [View.read_apply]
  show V m c main_v2 _ = _
  refine (congrFun (V_b1 m c) _).trans ?_
  refine cast_row _ _ d ?_
  show win0_8.index t (1 : Fin 2) * 128 + 1 * d.val = d.val
  rw [e1]; omega

/-- The window of the row b2 is the whole row at every point, and the row is the vector. -/
theorem blk_b2 (c : Dev nD) (t : Fin cfg0.N) (d : Fin 128) :
    (iblk m c 10 t : Vec Ideal S1x128 .f32) (ix2 (0 : Fin 1) d) = ((m ((c : Thread nD τ).loc main_arg10)) : S128.Idx → EReal) (ix1 d) := by
  obtain ⟨e0, e1⟩ := idx10 t
  unfold iblk
  rw [View.read_apply]
  show V m c main_v3 _ = _
  refine (congrFun (V_b2 m c) _).trans ?_
  refine cast_row _ _ d ?_
  show win0_10.index t (1 : Fin 2) * 128 + 1 * d.val = d.val
  rw [e1]; omega

/-- The window of the row g0 is the whole row at every point, and the row is the vector. -/
theorem blk_g0 (c : Dev nD) (t : Fin cfg0.N) (d : Fin 128) :
    (iblk m c 11 t : Vec Ideal S1x128 .f32) (ix2 (0 : Fin 1) d) = ((m ((c : Thread nD τ).loc main_arg11)) : S128.Idx → EReal) (ix1 d) := by
  obtain ⟨e0, e1⟩ := idx11 t
  unfold iblk
  rw [View.read_apply]
  show V m c main_v4 _ = _
  refine (congrFun (V_g0 m c) _).trans ?_
  refine cast_row _ _ d ?_
  show win0_11.index t (1 : Fin 2) * 128 + 1 * d.val = d.val
  rw [e1]; omega

/-- The window of the row be0 is the whole row at every point, and the row is the vector. -/
theorem blk_be0 (c : Dev nD) (t : Fin cfg0.N) (d : Fin 128) :
    (iblk m c 12 t : Vec Ideal S1x128 .f32) (ix2 (0 : Fin 1) d) = ((m ((c : Thread nD τ).loc main_arg12)) : S128.Idx → EReal) (ix1 d) := by
  obtain ⟨e0, e1⟩ := idx12 t
  unfold iblk
  rw [View.read_apply]
  show V m c main_v5 _ = _
  refine (congrFun (V_be0 m c) _).trans ?_
  refine cast_row _ _ d ?_
  show win0_12.index t (1 : Fin 2) * 128 + 1 * d.val = d.val
  rw [e1]; omega

/-- The window of the row m0 is the whole row at every point, and the row is the vector. -/
theorem blk_m0 (c : Dev nD) (t : Fin cfg0.N) (d : Fin 128) :
    (iblk m c 13 t : Vec Ideal S1x128 .f32) (ix2 (0 : Fin 1) d) = ((m ((c : Thread nD τ).loc main_arg13)) : S128.Idx → EReal) (ix1 d) := by
  obtain ⟨e0, e1⟩ := idx13 t
  unfold iblk
  rw [View.read_apply]
  show V m c main_v6 _ = _
  refine (congrFun (V_m0 m c) _).trans ?_
  refine cast_row _ _ d ?_
  show win0_13.index t (1 : Fin 2) * 128 + 1 * d.val = d.val
  rw [e1]; omega

/-- The window of the row v0 is the whole row at every point, and the row is the vector. -/
theorem blk_v0 (c : Dev nD) (t : Fin cfg0.N) (d : Fin 128) :
    (iblk m c 14 t : Vec Ideal S1x128 .f32) (ix2 (0 : Fin 1) d) = ((m ((c : Thread nD τ).loc main_arg14)) : S128.Idx → EReal) (ix1 d) := by
  obtain ⟨e0, e1⟩ := idx14 t
  unfold iblk
  rw [View.read_apply]
  show V m c main_v7 _ = _
  refine (congrFun (V_v0 m c) _).trans ?_
  refine cast_row _ _ d ?_
  show win0_14.index t (1 : Fin 2) * 128 + 1 * d.val = d.val
  rw [e1]; omega

/-- The window of the row g1 is the whole row at every point, and the row is the vector. -/
theorem blk_g1 (c : Dev nD) (t : Fin cfg0.N) (d : Fin 128) :
    (iblk m c 15 t : Vec Ideal S1x128 .f32) (ix2 (0 : Fin 1) d) = ((m ((c : Thread nD τ).loc main_arg15)) : S128.Idx → EReal) (ix1 d) := by
  obtain ⟨e0, e1⟩ := idx15 t
  unfold iblk
  rw [View.read_apply]
  show V m c main_v8 _ = _
  refine (congrFun (V_g1 m c) _).trans ?_
  refine cast_row _ _ d ?_
  show win0_15.index t (1 : Fin 2) * 128 + 1 * d.val = d.val
  rw [e1]; omega

/-- The window of the row be1 is the whole row at every point, and the row is the vector. -/
theorem blk_be1 (c : Dev nD) (t : Fin cfg0.N) (d : Fin 128) :
    (iblk m c 16 t : Vec Ideal S1x128 .f32) (ix2 (0 : Fin 1) d) = ((m ((c : Thread nD τ).loc main_arg16)) : S128.Idx → EReal) (ix1 d) := by
  obtain ⟨e0, e1⟩ := idx16 t
  unfold iblk
  rw [View.read_apply]
  show V m c main_v9 _ = _
  refine (congrFun (V_be1 m c) _).trans ?_
  refine cast_row _ _ d ?_
  show win0_16.index t (1 : Fin 2) * 128 + 1 * d.val = d.val
  rw [e1]; omega

/-- The window of the row m1 is the whole row at every point, and the row is the vector. -/
theorem blk_m1 (c : Dev nD) (t : Fin cfg0.N) (d : Fin 128) :
    (iblk m c 17 t : Vec Ideal S1x128 .f32) (ix2 (0 : Fin 1) d) = ((m ((c : Thread nD τ).loc main_arg17)) : S128.Idx → EReal) (ix1 d) := by
  obtain ⟨e0, e1⟩ := idx17 t
  unfold iblk
  rw [View.read_apply]
  show V m c main_v10 _ = _
  refine (congrFun (V_m1 m c) _).trans ?_
  refine cast_row _ _ d ?_
  show win0_17.index t (1 : Fin 2) * 128 + 1 * d.val = d.val
  rw [e1]; omega

/-- The window of the row v1 is the whole row at every point, and the row is the vector. -/
theorem blk_v1 (c : Dev nD) (t : Fin cfg0.N) (d : Fin 128) :
    (iblk m c 18 t : Vec Ideal S1x128 .f32) (ix2 (0 : Fin 1) d) = ((m ((c : Thread nD τ).loc main_arg18)) : S128.Idx → EReal) (ix1 d) := by
  obtain ⟨e0, e1⟩ := idx18 t
  unfold iblk
  rw [View.read_apply]
  show V m c main_v11 _ = _
  refine (congrFun (V_v1 m c) _).trans ?_
  refine cast_row _ _ d ?_
  show win0_18.index t (1 : Fin 2) * 128 + 1 * d.val = d.val
  rw [e1]; omega

/-- The window of the row g2 is the whole row at every point, and the row is the vector. -/
theorem blk_g2 (c : Dev nD) (t : Fin cfg0.N) (d : Fin 128) :
    (iblk m c 19 t : Vec Ideal S1x128 .f32) (ix2 (0 : Fin 1) d) = ((m ((c : Thread nD τ).loc main_arg19)) : S128.Idx → EReal) (ix1 d) := by
  obtain ⟨e0, e1⟩ := idx19 t
  unfold iblk
  rw [View.read_apply]
  show V m c main_v12 _ = _
  refine (congrFun (V_g2 m c) _).trans ?_
  refine cast_row _ _ d ?_
  show win0_19.index t (1 : Fin 2) * 128 + 1 * d.val = d.val
  rw [e1]; omega

/-- The window of the row be2 is the whole row at every point, and the row is the vector. -/
theorem blk_be2 (c : Dev nD) (t : Fin cfg0.N) (d : Fin 128) :
    (iblk m c 20 t : Vec Ideal S1x128 .f32) (ix2 (0 : Fin 1) d) = ((m ((c : Thread nD τ).loc main_arg20)) : S128.Idx → EReal) (ix1 d) := by
  obtain ⟨e0, e1⟩ := idx20 t
  unfold iblk
  rw [View.read_apply]
  show V m c main_v13 _ = _
  refine (congrFun (V_be2 m c) _).trans ?_
  refine cast_row _ _ d ?_
  show win0_20.index t (1 : Fin 2) * 128 + 1 * d.val = d.val
  rw [e1]; omega

/-- The window of the row m2 is the whole row at every point, and the row is the vector. -/
theorem blk_m2 (c : Dev nD) (t : Fin cfg0.N) (d : Fin 128) :
    (iblk m c 21 t : Vec Ideal S1x128 .f32) (ix2 (0 : Fin 1) d) = ((m ((c : Thread nD τ).loc main_arg21)) : S128.Idx → EReal) (ix1 d) := by
  obtain ⟨e0, e1⟩ := idx21 t
  unfold iblk
  rw [View.read_apply]
  show V m c main_v14 _ = _
  refine (congrFun (V_m2 m c) _).trans ?_
  refine cast_row _ _ d ?_
  show win0_21.index t (1 : Fin 2) * 128 + 1 * d.val = d.val
  rw [e1]; omega

/-- The window of the row v2 is the whole row at every point, and the row is the vector. -/
theorem blk_v2 (c : Dev nD) (t : Fin cfg0.N) (d : Fin 128) :
    (iblk m c 22 t : Vec Ideal S1x128 .f32) (ix2 (0 : Fin 1) d) = ((m ((c : Thread nD τ).loc main_arg22)) : S128.Idx → EReal) (ix1 d) := by
  obtain ⟨e0, e1⟩ := idx22 t
  unfold iblk
  rw [View.read_apply]
  show V m c main_v15 _ = _
  refine (congrFun (V_v2 m c) _).trans ?_
  refine cast_row _ _ d ?_
  show win0_22.index t (1 : Fin 2) * 128 + 1 * d.val = d.val
  rw [e1]; omega

/-! ## What a grid point leaves in its output block

First over arbitrary blocks: the loads through the whole staging buffers read the blocks themselves, the four loads of
128 rows of the first matrix read its four quarters, and the body's value is the network with its first linear map taken
quarter by quarter. -/

theorem ld_edge (x : Vec Ideal S2000x128 .f32) : View.ld x r0_2 = x := View.ld_unit_zero hz _ x
theorem ld_col (x : Vec Ideal S2000x1 .i32) : View.ld x r0_0 = x := View.ld_unit_zero hz _ x
theorem ld_table (x : Vec Ideal S64x128 .f32) : View.ld x r0_1 = x := View.ld_unit_zero hz _ x
theorem ld_row (x : Vec Ideal S1x128 .f32) : View.ld x r0_7 = x := View.ld_unit_zero hz _ x
theorem ld_mat (x : Vec Ideal S128x128 .f32) : View.ld x r0_8 = x := View.ld_unit_zero hz _ x

/-- Rows 0 … 0 + 127 of the first matrix are its quarter 0. -/
theorem ld_quarter0 (x : Vec Ideal S512x128 .f32) (k d : Fin 128) : View.ld x r0_3 (ix2 k d) = mat x (quarter 0 k) d := by
  show x _ = x _
  congr 1
  funext a
  apply Fin.ext
  match a with
  | ⟨0, _⟩ => show 0 + 1 * k.val = 128 * 0 + k.val; omega
  | ⟨1, _⟩ => show 0 + 1 * d.val = d.val; omega

/-- Rows 128 … 128 + 127 of the first matrix are its quarter 1. -/
theorem ld_quarter1 (x : Vec Ideal S512x128 .f32) (k d : Fin 128) : View.ld x r0_4 (ix2 k d) = mat x (quarter 1 k) d := by
  show x _ = x _
  congr 1
  funext a
  apply Fin.ext
  match a with
  | ⟨0, _⟩ => show 128 + 1 * k.val = 128 * 1 + k.val; omega
  | ⟨1, _⟩ => show 0 + 1 * d.val = d.val; omega

/-- Rows 256 … 256 + 127 of the first matrix are its quarter 2. -/
theorem ld_quarter2 (x : Vec Ideal S512x128 .f32) (k d : Fin 128) : View.ld x r0_5 (ix2 k d) = mat x (quarter 2 k) d := by
  show x _ = x _
  congr 1
  funext a
  apply Fin.ext
  match a with
  | ⟨0, _⟩ => show 256 + 1 * k.val = 128 * 2 + k.val; omega
  | ⟨1, _⟩ => show 0 + 1 * d.val = d.val; omega

/-- Rows 384 … 384 + 127 of the first matrix are its quarter 3. -/
theorem ld_quarter3 (x : Vec Ideal S512x128 .f32) (k d : Fin 128) : View.ld x r0_6 (ix2 k d) = mat x (quarter 3 k) d := by
  show x _ = x _
  congr 1
  funext a
  apply Fin.ext
  match a with
  | ⟨0, _⟩ => show 384 + 1 * k.val = 128 * 3 + k.val; omega
  | ⟨1, _⟩ => show 0 + 1 * d.val = d.val; omega

/-- Entry (p, q) of the block a point leaves, from the point's input blocks. -/
theorem entry_of_blocks (x0 x1 x2 : Vec Ideal S2000x128 .f32) (x3 : Vec Ideal S2000x1 .i32) (x4 : Vec Ideal S64x128 .f32) (x5 : Vec Ideal S512x128 .f32)
    (x6 : Vec Ideal S1x128 .f32) (x7 : Vec Ideal S128x128 .f32) (x8 : Vec Ideal S1x128 .f32) (x9 : Vec Ideal S128x128 .f32)
    (x10 x11 x12 x13 x14 x15 x16 x17 x18 x19 x20 x21 x22 : Vec Ideal S1x128 .f32)
    (p : Fin 2000) (q : Fin 128) :
    out0_23 x0 x1 x2 x3 x4 x5 x6 x7 x8 x9 x10 x11 x12 x13 x14 x15 x16 x17 x18 x19 x20 x21 x22 (ix2 p q)
      = net4 (fun k => x0 (ix2 p k)) (fun k => x1 (ix2 p k)) (fun k => x2 (ix2 p k))
        (fun k => ∑ j : Fin 64, hot (x3 (ix2 p (0 : Fin 1))) j * x4 (ix2 j k)) (mat x5)
        (Body.row x6) (Body.row x13) (Body.row x14) (Body.row x11) (Body.row x12) (mat x7)
        (Body.row x8) (Body.row x17) (Body.row x18) (Body.row x15) (Body.row x16) (mat x9)
        (Body.row x10) (Body.row x21) (Body.row x22) (Body.row x19) (Body.row x20) q := by
  unfold out0_23
  refine (canon23_eq (F := Ideal) (View.ld x3 r0_0) (View.ld x4 r0_1) (View.ld x0 r0_2) (View.ld x1 r0_2) (View.ld x2 r0_2) (View.ld x5 r0_3) (View.ld x5 r0_4) (View.ld x5 r0_5) (View.ld x5 r0_6) (View.ld x6 r0_7) (View.ld x13 r0_7) (View.ld x14 r0_7) (View.ld x11 r0_7) (View.ld x12 r0_7) (View.ld x7 r0_8) (View.ld x8 r0_7) (View.ld x17 r0_7) (View.ld x18 r0_7) (View.ld x15 r0_7) (View.ld x16 r0_7) (View.ld x9 r0_8) (View.ld x10 r0_7) (View.ld x21 r0_7) (View.ld x22 r0_7) (View.ld x19 r0_7) (View.ld x20 r0_7) (ix2 p q)).trans ?_
  refine (Body.E23_eq (View.ld x3 r0_0) (View.ld x4 r0_1) (View.ld x0 r0_2) (View.ld x1 r0_2) (View.ld x2 r0_2) (View.ld x5 r0_3) (View.ld x5 r0_4) (View.ld x5 r0_5) (View.ld x5 r0_6) (View.ld x6 r0_7) (View.ld x13 r0_7) (View.ld x14 r0_7) (View.ld x11 r0_7) (View.ld x12 r0_7) (View.ld x7 r0_8) (View.ld x8 r0_7) (View.ld x17 r0_7) (View.ld x18 r0_7) (View.ld x15 r0_7) (View.ld x16 r0_7) (View.ld x9 r0_8) (View.ld x10 r0_7) (View.ld x21 r0_7) (View.ld x22 r0_7) (View.ld x19 r0_7) (View.ld x20 r0_7) (mat x5) (ld_quarter0 x5) (ld_quarter1 x5) (ld_quarter2 x5) (ld_quarter3 x5) p q).trans ?_
  rw [ld_col, ld_table, ld_edge x0, ld_edge x1, ld_edge x2, ld_row x6, ld_row x8, ld_row x10, ld_row x11, ld_row x12, ld_row x13, ld_row x14,
    ld_row x15, ld_row x16, ld_row x17, ld_row x18, ld_row x19, ld_row x20, ld_row x21, ld_row x22, ld_mat x7, ld_mat x9]

/-- Then at a point's own blocks: when they are rows r of the edge arrays and of the index column, the whole table, the
    whole matrices and the rows, and the graph index of row r lies in [0, 64), the entry is the network's result at (r, q):
    the weighted sum over the table's rows is the index's own row, and the quarters add up to the contraction of the joined
    row with the whole first matrix. -/
theorem entry_of_arrays (x0 x1 x2 : Vec Ideal S2000x128 .f32) (x3 : Vec Ideal S2000x1 .i32) (x4 : Vec Ideal S64x128 .f32) (x5 : Vec Ideal S512x128 .f32)
    (x6 : Vec Ideal S1x128 .f32) (x7 : Vec Ideal S128x128 .f32) (x8 : Vec Ideal S1x128 .f32) (x9 : Vec Ideal S128x128 .f32)
    (x10 x11 x12 x13 x14 x15 x16 x17 x18 x19 x20 x21 x22 : Vec Ideal S1x128 .f32)
    (src dst att : SE.Idx → EReal) (u : SU.Idx → EReal) (batch : SB.Idx → BitVec 32)
    (W0 : SW0.Idx → EReal) (b0 : SV.Idx → EReal) (W1 : SW.Idx → EReal) (b1 : SV.Idx → EReal) (W2 : SW.Idx → EReal) (b2 : SV.Idx → EReal)
    (g0 be0 m0 v0 g1 be1 m1 v1 g2 be2 m2 v2 : SV.Idx → EReal)
    (r : Fin 500000) (p : Fin 2000)
    (h0 : ∀ k : Fin 128, x0 (ix2 p k) = src (ix2 r k)) (h1 : ∀ k : Fin 128, x1 (ix2 p k) = dst (ix2 r k)) (h2 : ∀ k : Fin 128, x2 (ix2 p k) = att (ix2 r k))
    (h3 : x3 (ix2 p (0 : Fin 1)) = batch (ix1 r)) (h4 : ∀ (j : Fin 64) (k : Fin 128), x4 (ix2 j k) = u (ix2 j k))
    (h5 : ∀ (a : Fin 512) (d : Fin 128), x5 (ix2 a d) = W0 (ix2 a d)) (h7 : ∀ k d : Fin 128, x7 (ix2 k d) = W1 (ix2 k d)) (h9 : ∀ k d : Fin 128, x9 (ix2 k d) = W2 (ix2 k d))
    (h6 : ∀ d : Fin 128, x6 (ix2 (0 : Fin 1) d) = b0 (ix1 d)) (h8 : ∀ d : Fin 128, x8 (ix2 (0 : Fin 1) d) = b1 (ix1 d)) (h10 : ∀ d : Fin 128, x10 (ix2 (0 : Fin 1) d) = b2 (ix1 d)) (h11 : ∀ d : Fin 128, x11 (ix2 (0 : Fin 1) d) = g0 (ix1 d)) (h12 : ∀ d : Fin 128, x12 (ix2 (0 : Fin 1) d) = be0 (ix1 d)) (h13 : ∀ d : Fin 128, x13 (ix2 (0 : Fin 1) d) = m0 (ix1 d)) (h14 : ∀ d : Fin 128, x14 (ix2 (0 : Fin 1) d) = v0 (ix1 d)) (h15 : ∀ d : Fin 128, x15 (ix2 (0 : Fin 1) d) = g1 (ix1 d)) (h16 : ∀ d : Fin 128, x16 (ix2 (0 : Fin 1) d) = be1 (ix1 d)) (h17 : ∀ d : Fin 128, x17 (ix2 (0 : Fin 1) d) = m1 (ix1 d)) (h18 : ∀ d : Fin 128, x18 (ix2 (0 : Fin 1) d) = v1 (ix1 d)) (h19 : ∀ d : Fin 128, x19 (ix2 (0 : Fin 1) d) = g2 (ix1 d)) (h20 : ∀ d : Fin 128, x20 (ix2 (0 : Fin 1) d) = be2 (ix1 d)) (h21 : ∀ d : Fin 128, x21 (ix2 (0 : Fin 1) d) = m2 (ix1 d)) (h22 : ∀ d : Fin 128, x22 (ix2 (0 : Fin 1) d) = v2 (ix1 d))
    (hlo : 0 ≤ (batch (ix1 r)).toInt) (hhi : (batch (ix1 r)).toInt < 64) (q : Fin 128) :
    out0_23 x0 x1 x2 x3 x4 x5 x6 x7 x8 x9 x10 x11 x12 x13 x14 x15 x16 x17 x18 x19 x20 x21 x22 (ix2 p q) = out src dst att u batch W0 b0 W1 b1 W2 b2 g0 be0 m0 v0 g1 be1 m1 v1 g2 be2 m2 v2 (ix2 r q) := by
  refine (entry_of_blocks x0 x1 x2 x3 x4 x5 x6 x7 x8 x9 x10 x11 x12 x13 x14 x15 x16 x17 x18 x19 x20 x21 x22 p q).trans ?_
  rw [out_apply]
  unfold outAt edgeRow
  rw [net_joined]
  have es : (fun k => x0 (ix2 p k)) = fun k => src (ix2 r k) := funext h0
  have ed : (fun k => x1 (ix2 p k)) = fun k => dst (ix2 r k) := funext h1
  have ea : (fun k => x2 (ix2 p k)) = fun k => att (ix2 r k) := funext h2
  have eg : (fun k => ∑ j : Fin 64, hot (x3 (ix2 p (0 : Fin 1))) j * x4 (ix2 j k)) = fun k => u (ix2 (graphRow (batch (ix1 r))) k) :=
    funext fun k => by
      rw [h3]
      simp only [h4]
      exact pick_row hlo hhi fun j => u (ix2 j k)
  have e5 : mat x5 = mat W0 := funext fun a => funext fun d => h5 a d
  have e7 : mat x7 = mat W1 := funext fun a => funext fun d => h7 a d
  have e9 : mat x9 = mat W2 := funext fun a => funext fun d => h9 a d
  have e6 : Body.row x6 = vec b0 := funext h6
  have e8 : Body.row x8 = vec b1 := funext h8
  have e10 : Body.row x10 = vec b2 := funext h10
  have e11 : Body.row x11 = vec g0 := funext h11
  have e12 : Body.row x12 = vec be0 := funext h12
  have e13 : Body.row x13 = vec m0 := funext h13
  have e14 : Body.row x14 = vec v0 := funext h14
  have e15 : Body.row x15 = vec g1 := funext h15
  have e16 : Body.row x16 = vec be1 := funext h16
  have e17 : Body.row x17 = vec m1 := funext h17
  have e18 : Body.row x18 = vec v1 := funext h18
  have e19 : Body.row x19 = vec g2 := funext h19
  have e20 : Body.row x20 = vec be2 := funext h20
  have e21 : Body.row x21 = vec m2 := funext h21
  have e22 : Body.row x22 = vec v2 := funext h22
  rw [es, ed, ea, eg, e5, e7, e9, e6, e13, e14, e11, e12, e8, e17, e18, e15, e16, e10, e21, e22, e19, e20]

/-! ## From blocks to the array -/

/-- What point t writes back is block t of the network's result on the argument arrays. -/
theorem flushed_eq (hb : ∀ (c : Dev nD) (r : Fin 500000), 0 ≤ ((m ((c : Thread nD τ).loc main_arg4)) (ix1 r)).toInt
      ∧ ((m ((c : Thread nD τ).loc main_arg4)) (ix1 r)).toInt < 64)
    (c : Dev nD) (t : Fin cfg0.N) :
    (dats m 0 c).flushed 23 t = ((cfg0.win 23).blk t).view.read (Elt Ideal) (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  rw [Value.flushed23]
  funext y
  have hy0 : (y 0).val < 2000 := (y 0).isLt
  have hy1 : (y 1).val < 128 := (y 1).isLt
  obtain ⟨e0, e1⟩ := idx23 t
  have ey : (cfg0.win 23).xinj (grid0.coords t) y = ix2 (⟨(y 0).val, hy0⟩ : Fin 2000) (⟨(y 1).val, hy1⟩ : Fin 128) :=
    funext fun a => match a with | ⟨0, _⟩ => rfl | ⟨1, _⟩ => rfl
  have ei : ((cfg0.win 23).blk t).view.emb y = ix2 (rowOf t ⟨(y 0).val, hy0⟩) (⟨(y 1).val, hy1⟩ : Fin 128) :=
    funext fun a => Fin.ext (match a with
      | ⟨0, _⟩ => by show win0_23.index t (0 : Fin 2) * 2000 + 1 * (y 0).val = 2000 * t.val + (y 0).val; rw [e0]; omega
      | ⟨1, _⟩ => by show win0_23.index t (1 : Fin 2) * 128 + 1 * (y 1).val = (y 1).val; rw [e1]; omega)
  rw [View.read_apply]
  show out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) ((cfg0.win 23).xinj (grid0.coords t) y)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (((cfg0.win 23).blk t).view.emb y)
  rw [ey, ei]
  exact entry_of_arrays (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
    (rowOf t ⟨(y 0).val, hy0⟩) ⟨(y 0).val, hy0⟩
    (blk_src m c t _) (blk_dst m c t _) (blk_att m c t _) (blk_batch m c t _) (blk_u m c t) (blk_W0 m c t) (blk_W1 m c t) (blk_W2 m c t)
    (blk_b0 m c t) (blk_b1 m c t) (blk_b2 m c t) (blk_g0 m c t) (blk_be0 m c t) (blk_m0 m c t) (blk_v0 m c t) (blk_g1 m c t) (blk_be1 m c t) (blk_m1 m c t) (blk_v1 m c t) (blk_g2 m c t) (blk_be2 m c t) (blk_m2 m c t) (blk_v2 m c t)
    (hb c _).1 (hb c _).2 ⟨(y 1).val, hy1⟩

/-- An index of the result array is in point t's block iff each coordinate is in the block's range on its axis. -/
theorem mem_blk (t : Fin cfg0.N) (i : S500000x128.Idx) :
    i ∈ ((cfg0.win 23).blk t).view.set ↔ ∀ a : Fin 2, win0_23.index t a * S2000x128.size a ≤ (i a).val ∧ (i a).val < win0_23.index t a * S2000x128.size a + S2000x128.size a := by
  show i ∈ ((View.whole main_v16).slice (win0_23.rect t)).set ↔ _
  rw [View.set_slice_whole, Rect.mem_set_unit]
  exact Iff.rfl

/-- Row r lies in the block of point r / 2000, and 250 · 2000 = 500000: the blocks cover the array. -/
theorem cover (i : S500000x128.Idx) : ∃ t : Fin cfg0.N, (cfg0.win 23).flush t = true ∧ i ∈ ((cfg0.win 23).blk t).view.set := by
  have hi0 : (i 0).val < 500000 := (i 0).isLt
  have hi1 : (i 1).val < 128 := (i 1).isLt
  have ht : (i 0).val / 2000 < cfg0.N := lt_of_lt_of_eq (by omega : (i 0).val / 2000 < 250) N_0.symm
  refine ⟨⟨(i 0).val / 2000, ht⟩, flush0_23 _, ?_⟩
  rw [mem_blk]
  have e0 : win0_23.index ⟨(i 0).val / 2000, ht⟩ (0 : Fin 2) = (i 0).val / 2000 := (idx23 ⟨(i 0).val / 2000, ht⟩).1
  have e1 : win0_23.index ⟨(i 0).val / 2000, ht⟩ (1 : Fin 2) = 0 := (idx23 ⟨(i 0).val / 2000, ht⟩).2
  intro a
  match a with
  | ⟨0, _⟩ =>
    show win0_23.index ⟨(i 0).val / 2000, ht⟩ (0 : Fin 2) * 2000 ≤ (i 0).val ∧ (i 0).val < win0_23.index ⟨(i 0).val / 2000, ht⟩ (0 : Fin 2) * 2000 + 2000
    rw [e0]; omega
  | ⟨1, _⟩ =>
    show win0_23.index ⟨(i 0).val / 2000, ht⟩ (1 : Fin 2) * 128 ≤ (i 1).val ∧ (i 1).val < win0_23.index ⟨(i 0).val / 2000, ht⟩ (1 : Fin 2) * 128 + 128
    rw [e1]; omega

/-- The result array after the run is the network's result on the argument arrays. -/
theorem final (hb : ∀ (c : Dev nD) (r : Fin 500000), 0 ≤ ((m ((c : Thread nD τ).loc main_arg4)) (ix1 r)).toInt
      ∧ ((m ((c : Thread nD τ).loc main_arg4)) (ix1 r)).toInt < 64)
    (c : Dev nD) : (dats m 0 c).arrAt 23 cfg0.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) :=
  (dats m 0 c).arrAt_eq_of_cover 23 (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (fun t _ => flushed_eq m hb c t) cover

/-- The kernel's run, with its result array named: when every graph index lies in [0, 64), every execution ends with the
    result array equal to the network's result on the argument arrays, and the arguments unchanged. -/
theorem kernel_run
    (hb : ∀ (c : Dev nD) (r : Fin 500000), 0 ≤ ((m ((c : Thread nD τ).loc main_arg4)) (ix1 r)).toInt
      ∧ ((m ((c : Thread nD τ).loc main_arg4)) (ix1 r)).toInt < 64) :
    θ_run defs (onTc (τ := τ) (main (F := Ideal))) ⟨m, fun _ => 0, ρ⟩ fun r => ∀ c : Dev nD,
      r.2.mem ((c : Thread nD τ).loc main_v16) = Cert.EdgeNet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m hb c), (h c).2⟩) (Value.run_blocks m ρ)

end Cert.EdgeNet.Blocks

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.RefValue.lean ====
/-
  The reference program's result, read entry by entry, is the network on each edge's joined row.
-/
import proofs.«416180_j62689342653097_1_alg».proof.Proof.Gen.ReferenceIdeal.Read
import proofs.«416180_j62689342653097_1_alg».proof.Proof.Spec
import proofs.«416180_j62689342653097_1_alg».proof.Proof.LibRowOps

noncomputable section

namespace Cert.EdgeNet.Ref

open Idealize.ShloMosaic Idealize.ShloMosaic.ValueIdx Cert.ReferenceIdeal Cert.ReferenceIdeal.Read

/-! ## The index the gather reads -/

/-- Entry r of the selected index array is the wrapped index of edge r. -/
theorem v4_at (x4 : (⟨S500000, .i32⟩ : BufTy).Contents (Elt Ideal)) (r : Fin 500000) :
    val_main_v4 (F := Ideal) x4 (ix1 r) = wrapIdx (x4 (ix1 r)) := by
  rw [val_main_v4_apply, val_main_v1_apply, val_main_v3_apply, val_main_v0_apply, val_main_v2_apply,
    val_main_c_apply, val_main_c_0_apply]
  rfl

/-- The same as a column of height 500000. -/
theorem v5_at (x4 : (⟨S500000, .i32⟩ : BufTy).Contents (Elt Ideal)) (r : Fin 500000) :
    val_main_v5 (F := Ideal) x4 (ix2 r (0 : Fin 1)) = wrapIdx (x4 (ix1 r)) := by
  rw [val_main_v5_apply]
  have e : idx_main_v5 (ix2 r (0 : Fin 1)) = ix1 r := by
    funext a
    match a with
    | ⟨0, _⟩ => rfl
  rw [e]
  exact v4_at x4 r

/-- Row r of the gathered table is the table's row at edge r's graph. -/
theorem v6_at (x3 : (⟨S64x128, .f32⟩ : BufTy).Contents (Elt Ideal)) (x4 : (⟨S500000, .i32⟩ : BufTy).Contents (Elt Ideal)) (r : Fin 500000) (c : Fin 128) :
    val_main_v6 (F := Ideal) x3 x4 (ix2 r c) = x3 (ix2 (graphRow (x4 (ix1 r))) c) := by
  unfold val_main_v6
  refine (Cert.Lib.RowOps.gath2_apply (N := 64) (D := 128) (E := 500000) (by norm_num) _ x3
    (val_main_v5 (F := Ideal) x4) r c).trans ?_
  have key : ∀ p q : Fin 64, p = q → x3 (ix2 p c) = x3 (ix2 q c) := fun p q h => by rw [h]
  refine key _ _ (Fin.ext ?_)
  exact congrArg (fun z : BitVec 32 => min z.toInt.toNat 63) (v5_at x4 r)

/-! ## The joined row -/

/-- Row r of the concatenation is edge r's joined row. -/
theorem v7_at (x0 x1 x2 : (⟨S500000x128, .f32⟩ : BufTy).Contents (Elt Ideal)) (x3 : (⟨S64x128, .f32⟩ : BufTy).Contents (Elt Ideal)) (x4 : (⟨S500000, .i32⟩ : BufTy).Contents (Elt Ideal)) (r : Fin 500000) (k : Fin 512) :
    val_main_v7 (F := Ideal) x0 x1 x2 x3 x4 (ix2 r k) = edgeRow x0 x1 x2 x3 x4 r k := by
  have hi : ∀ (kk : Fin 128) (b : Fin S500000x128.rank), b.cast (rfl : S500000x128.rank = S500000x512.rank) ≠ (1 : Fin S500000x512.rank) →
      ((ix2 r kk : S500000x128.Idx) b).val = ((ix2 r k : S500000x512.Idx) (b.cast rfl)).val := fun kk b hb => by
    match b with
    | ⟨0, _⟩ => rfl
    | ⟨1, _⟩ => exact absurd rfl hb
  unfold val_main_v7 edgeRow joined
  by_cases h1 : k.val < 128
  · rw [dif_pos h1]
    exact concatenate_apply_piece (1 : Fin S500000x512.rank) _ _ (ix2 r k) 0 (by show 0 < 4; omega) S500000x128 x0 rfl rfl 0 rfl
      (ix2 r ⟨k.val, h1⟩) (hi _) (by show 0 + k.val = k.val; omega)
  · rw [dif_neg h1]
    by_cases h2 : k.val < 256
    · rw [dif_pos h2]
      exact concatenate_apply_piece (1 : Fin S500000x512.rank) _ _ (ix2 r k) 1 (by show 1 < 4; omega) S500000x128 x1 rfl rfl 128 rfl
        (ix2 r ⟨k.val - 128, by omega⟩) (hi _) (by show 128 + (k.val - 128) = k.val; omega)
    · rw [dif_neg h2]
      by_cases h3 : k.val < 384
      · rw [dif_pos h3]
        exact concatenate_apply_piece (1 : Fin S500000x512.rank) _ _ (ix2 r k) 2 (by show 2 < 4; omega) S500000x128 x2 rfl rfl 256 rfl
          (ix2 r ⟨k.val - 256, by omega⟩) (hi _) (by show 256 + (k.val - 256) = k.val; omega)
      · rw [dif_neg h3]
        have hk := k.isLt
        refine (concatenate_apply_piece (1 : Fin S500000x512.rank) _ _ (ix2 r k) 3 (by show 3 < 4; omega) S500000x128
          (val_main_v6 (F := Ideal) x3 x4) rfl rfl 384 rfl
          (ix2 r ⟨k.val - 384, by omega⟩) (hi _) (by show 384 + (k.val - 384) = k.val; omega)).trans ?_
        exact v6_at x3 x4 r _

/-! ## Indices by coordinates -/

theorem lidx8 (r : Fin 500000) (d : Fin 128) (k : Fin 512) : lidx_main_v8 (ix2 r d) k = ix2 r k := by
  funext a
  match a with
  | ⟨0, _⟩ => rfl
  | ⟨1, _⟩ => rfl
theorem ridx8 (r : Fin 500000) (d : Fin 128) (k : Fin 512) : ridx_main_v8 (ix2 r d) k = ix2 k d := by
  funext a
  match a with
  | ⟨0, _⟩ => rfl
  | ⟨1, _⟩ => rfl
theorem lidx28 (r : Fin 500000) (d : Fin 128) (k : Fin 128) : lidx_main_v28 (ix2 r d) k = ix2 r k := by
  funext a
  match a with
  | ⟨0, _⟩ => rfl
  | ⟨1, _⟩ => rfl
theorem ridx28 (r : Fin 500000) (d : Fin 128) (k : Fin 128) : ridx_main_v28 (ix2 r d) k = ix2 k d := by
  funext a
  match a with
  | ⟨0, _⟩ => rfl
  | ⟨1, _⟩ => rfl
theorem lidx48 (r : Fin 500000) (d : Fin 128) (k : Fin 128) : lidx_main_v48 (ix2 r d) k = ix2 r k := by
  funext a
  match a with
  | ⟨0, _⟩ => rfl
  | ⟨1, _⟩ => rfl
theorem ridx48 (r : Fin 500000) (d : Fin 128) (k : Fin 128) : ridx_main_v48 (ix2 r d) k = ix2 k d := by
  funext a
  match a with
  | ⟨0, _⟩ => rfl
  | ⟨1, _⟩ => rfl

/-- A vector of 128 spread over the rows reads, at (r, d), its entry d. -/
theorem bc_idx (r : Fin 500000) (d : Fin 128) : idx_main_v9 (idx_main_v10 (ix2 r d)) = ix1 d := by
  funext a
  match a with
  | ⟨0, _⟩ => rfl

/-! ## The three layers -/

/-- Entry (r, d) after the first layer. -/
theorem layer0_at (x0 x1 x2 : (⟨S500000x128, .f32⟩ : BufTy).Contents (Elt Ideal)) (x3 : (⟨S64x128, .f32⟩ : BufTy).Contents (Elt Ideal)) (x4 : (⟨S500000, .i32⟩ : BufTy).Contents (Elt Ideal)) (x5 : (⟨S512x128, .f32⟩ : BufTy).Contents (Elt Ideal)) (x6 x11 x12 x13 x14 : (⟨S128, .f32⟩ : BufTy).Contents (Elt Ideal)) (r : Fin 500000) (d : Fin 128) :
    val_main_v27 (F := Ideal) x0 x1 x2 x3 x4 x5 x6 x11 x12 x13 x14 (ix2 r d)
      = layer (edgeRow x0 x1 x2 x3 x4 r) (mat x5) (vec x6) (vec x13) (vec x14) (vec x11) (vec x12) d := by
  have hs : val_main_v8 (F := Ideal) x0 x1 x2 x3 x4 x5 (ix2 r d)
      = ∑ k : Fin 512, edgeRow x0 x1 x2 x3 x4 r k * x5 (ix2 k d) := by
    rw [val_main_v8_apply]
    refine Finset.sum_congr rfl fun k _ => ?_
    rw [lidx8, v7_at, ridx8]
  have e9 : idx_main_v9 (idx_main_v10 (ix2 r d)) = ix1 d := bc_idx r d
  have e13 : idx_main_v13 (idx_main_v14 (ix2 r d)) = ix1 d := bc_idx r d
  have e19 : idx_main_v19 (idx_main_v20 (ix2 r d)) = ix1 d := bc_idx r d
  have e22 : idx_main_v22 (idx_main_v23 (ix2 r d)) = ix1 d := bc_idx r d
  have e25 : idx_main_v25 (idx_main_v26 (ix2 r d)) = ix1 d := bc_idx r d
  simp only [val_main_v27_apply, val_main_v24_apply, val_main_v21_apply, val_main_v15_apply, val_main_v12_apply,
    val_main_v11_apply, hs, val_main_v10_apply, val_main_v9_apply, val_main_call0_v0_apply, val_main_call0_cst_apply,
    val_main_v14_apply, val_main_v13_apply, val_main_v20_apply, val_main_v19_apply, val_main_v18_apply,
    val_main_v17_apply, val_main_v16_apply, val_main_cst_apply, val_main_v23_apply, val_main_v22_apply,
    val_main_v26_apply, val_main_v25_apply, e9, e13, e19, e22, e25]
  rfl

/-- Entry (r, d) after the second layer. -/
theorem layer1_at (x0 x1 x2 : (⟨S500000x128, .f32⟩ : BufTy).Contents (Elt Ideal)) (x3 : (⟨S64x128, .f32⟩ : BufTy).Contents (Elt Ideal)) (x4 : (⟨S500000, .i32⟩ : BufTy).Contents (Elt Ideal)) (x5 : (⟨S512x128, .f32⟩ : BufTy).Contents (Elt Ideal)) (x6 : (⟨S128, .f32⟩ : BufTy).Contents (Elt Ideal)) (x7 : (⟨S128x128, .f32⟩ : BufTy).Contents (Elt Ideal))
    (x8 x11 x12 x13 x14 x15 x16 x17 x18 : (⟨S128, .f32⟩ : BufTy).Contents (Elt Ideal)) (r : Fin 500000) (d : Fin 128) :
    val_main_v47 (F := Ideal) x0 x1 x2 x3 x4 x5 x6 x7 x8 x11 x12 x13 x14 x15 x16 x17 x18 (ix2 r d)
      = layer (layer (edgeRow x0 x1 x2 x3 x4 r) (mat x5) (vec x6) (vec x13) (vec x14) (vec x11) (vec x12))
          (mat x7) (vec x8) (vec x17) (vec x18) (vec x15) (vec x16) d := by
  have hs : val_main_v28 (F := Ideal) x0 x1 x2 x3 x4 x5 x6 x7 x11 x12 x13 x14 (ix2 r d)
      = ∑ k : Fin 128, layer (edgeRow x0 x1 x2 x3 x4 r) (mat x5) (vec x6) (vec x13) (vec x14) (vec x11) (vec x12) k
          * x7 (ix2 k d) := by
    rw [val_main_v28_apply]
    refine Finset.sum_congr rfl fun k _ => ?_
    rw [lidx28, layer0_at, ridx28]
  have e29 : idx_main_v29 (idx_main_v30 (ix2 r d)) = ix1 d := bc_idx r d
  have e33 : idx_main_v33 (idx_main_v34 (ix2 r d)) = ix1 d := bc_idx r d
  have e39 : idx_main_v39 (idx_main_v40 (ix2 r d)) = ix1 d := bc_idx r d
  have e42 : idx_main_v42 (idx_main_v43 (ix2 r d)) = ix1 d := bc_idx r d
  have e45 : idx_main_v45 (idx_main_v46 (ix2 r d)) = ix1 d := bc_idx r d
  simp only [val_main_v47_apply, val_main_v44_apply, val_main_v41_apply, val_main_v35_apply, val_main_v32_apply,
    val_main_v31_apply, hs, val_main_v30_apply, val_main_v29_apply, val_main_call1_v0_apply, val_main_call1_cst_apply,
    val_main_v34_apply, val_main_v33_apply, val_main_v40_apply, val_main_v39_apply, val_main_v38_apply,
    val_main_v37_apply, val_main_v36_apply, val_main_cst_1_apply, val_main_v43_apply, val_main_v42_apply,
    val_main_v46_apply, val_main_v45_apply, e29, e33, e39, e42, e45]
  rfl

/-- Entry (r, d) after the third layer. -/
theorem layer2_at (x0 x1 x2 : (⟨S500000x128, .f32⟩ : BufTy).Contents (Elt Ideal)) (x3 : (⟨S64x128, .f32⟩ : BufTy).Contents (Elt Ideal)) (x4 : (⟨S500000, .i32⟩ : BufTy).Contents (Elt Ideal)) (x5 : (⟨S512x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal))
    (x10 x11 x12 x13 x14 x15 x16 x17 x18 x19 x20 x21 x22 : (⟨S128, .f32⟩ : BufTy).Contents (Elt Ideal)) (r : Fin 500000) (d : Fin 128) :
    val_main_v67 (F := Ideal) x0 x1 x2 x3 x4 x5 x6 x7 x8 x9 x10 x11 x12 x13 x14 x15 x16 x17 x18 x19 x20 x21 x22 (ix2 r d)
      = layer (layer (layer (edgeRow x0 x1 x2 x3 x4 r) (mat x5) (vec x6) (vec x13) (vec x14) (vec x11) (vec x12))
          (mat x7) (vec x8) (vec x17) (vec x18) (vec x15) (vec x16))
          (mat x9) (vec x10) (vec x21) (vec x22) (vec x19) (vec x20) d := by
  have hs : val_main_v48 (F := Ideal) x0 x1 x2 x3 x4 x5 x6 x7 x8 x9 x11 x12 x13 x14 x15 x16 x17 x18 (ix2 r d)
      = ∑ k : Fin 128, layer (layer (edgeRow x0 x1 x2 x3 x4 r) (mat x5) (vec x6) (vec x13) (vec x14) (vec x11) (vec x12))
          (mat x7) (vec x8) (vec x17) (vec x18) (vec x15) (vec x16) k * x9 (ix2 k d) := by
    rw [val_main_v48_apply]
    refine Finset.sum_congr rfl fun k _ => ?_
    rw [lidx48, layer1_at, ridx48]
  have e49 : idx_main_v49 (idx_main_v50 (ix2 r d)) = ix1 d := bc_idx r d
  have e53 : idx_main_v53 (idx_main_v54 (ix2 r d)) = ix1 d := bc_idx r d
  have e59 : idx_main_v59 (idx_main_v60 (ix2 r d)) = ix1 d := bc_idx r d
  have e62 : idx_main_v62 (idx_main_v63 (ix2 r d)) = ix1 d := bc_idx r d
  have e65 : idx_main_v65 (idx_main_v66 (ix2 r d)) = ix1 d := bc_idx r d
  simp only [val_main_v67_apply, val_main_v64_apply, val_main_v61_apply, val_main_v55_apply, val_main_v52_apply,
    val_main_v51_apply, hs, val_main_v50_apply, val_main_v49_apply, val_main_call2_v0_apply, val_main_call2_cst_apply,
    val_main_v54_apply, val_main_v53_apply, val_main_v60_apply, val_main_v59_apply, val_main_v58_apply,
    val_main_v57_apply, val_main_v56_apply, val_main_cst_2_apply, val_main_v63_apply, val_main_v62_apply,
    val_main_v66_apply, val_main_v65_apply, e49, e53, e59, e62, e65]
  rfl

/-- The reference's result array is `out` of its 23 argument arrays. -/
theorem ref_eq (x0 x1 x2 : (⟨S500000x128, .f32⟩ : BufTy).Contents (Elt Ideal)) (x3 : (⟨S64x128, .f32⟩ : BufTy).Contents (Elt Ideal))
    (x4 : (⟨S500000, .i32⟩ : BufTy).Contents (Elt Ideal)) (x5 : (⟨S512x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) (x9 : (⟨S128x128, .f32⟩ : BufTy).Contents (Elt Ideal))
    (x10 x11 x12 x13 x14 x15 x16 x17 x18 x19 x20 x21 x22 : (⟨S128, .f32⟩ : BufTy).Contents (Elt Ideal)) :
    val_main_v67 (F := Ideal) x0 x1 x2 x3 x4 x5 x6 x7 x8 x9 x10 x11 x12 x13 x14 x15 x16 x17 x18 x19 x20 x21 x22
      = Cert.EdgeNet.out x0 x1 x2 x3 x4 x5 x6 x7 x8 x9 x10 x11 x12 x13 x14 x15 x16 x17 x18 x19 x20 x21 x22 := by
  funext i
  obtain ⟨r, d, rfl⟩ : ∃ r d, i = ix2 r d := ⟨i 0, i 1, eq_ix2 i⟩
  rw [out_apply]
  unfold outAt net
  exact layer2_at x0 x1 x2 x3 x4 x5 x6 x7 x8 x9 x10 x11 x12 x13 x14 x15 x16 x17 x18 x19 x20 x21 x22 r d

end Cert.EdgeNet.Ref

end
-- ==== Proof.BatchRange.lean ====
/-
  What the precondition says of the graph indices: every entry of `batch`, read as a signed integer, lies in [0, 64).
-/
import proofs.«416180_j62689342653097_1_alg».proof.Pre_finite_inputs
import Idealize.ShloMosaic.Lib.ReduceAll
import Idealize.ShloMosaic.Lib.ValueIdx
import Idealize.ShloMosaic.Lib.Affine
import Idealize.ShloMosaic.Lib.StableHlo.Predicate

noncomputable section

namespace Cert.EdgeNet.Pre

open Idealize.ShloMosaic Idealize.ShloMosaic.ValueIdx Cert.Pre_finite_inputs

variable {F : FTy → Type} [FloatOps F] [Cert.Pre_finite_inputs.Facts]

/-- A shape of rank 0 has exactly one index. -/
instance : Subsingleton S_.Idx := ⟨fun _ _ => funext fun d => d.elim0⟩

/-- The scalar 0, broadcast along the index array, reads 0 at every entry. -/
theorem bcast_zero_at (j : S500000.Idx) :
    broadcastInDim S500000 ![] Facts.bcast_S_S500000 (constantI S_ 32 0#32) j = 0#32 :=
  StableHlo.Predicate.bcast_scalar Facts.bcast_S_S500000 Facts.h_S_ (constantI S_ 32 0#32) j

/-- The scalar 64, broadcast along the index array, reads 64 at every entry. -/
theorem bcast_sixtyfour_at (j : S500000.Idx) :
    broadcastInDim S500000 ![] Facts.bcast_S_S500000 (constantI S_ 32 64#32) j = 64#32 :=
  StableHlo.Predicate.bcast_scalar Facts.bcast_S_S500000 Facts.h_S_ (constantI S_ 32 64#32) j

/-- The last part of the printed precondition ends in the conjunction of what came before with
    `all (0 ≤ batch ∧ batch < 64)`: when the part is 1, so is that last conjunct, an `and`-reduction over all
    entries; each entry of the reduced array is then 1, and its two comparisons read back as the two bounds.
    The conjuncts that came before enter only as names. -/
theorem part6_range (a4 : IVec S500000 32) (a22 : FVec F S128 .f32) (v98 : IVec S_ 1) (v101 : IVec S128 1)
    (c39 : IVec S_ 1) (h : fn_part6 (F := F) a4 a22 v98 v101 c39 ix0 = 1#1) (r : Fin 500000) :
    0 ≤ (a4 (ix1 r)).toInt ∧ (a4 (ix1 r)).toInt < 64 := by
  have h1 : Host.reduce IntOp.andi
      (andi (cmpi .sge a4 (broadcastInDim S500000 ![] Facts.bcast_S_S500000 (constantI S_ 32 0#32)))
        (cmpi .slt a4 (broadcastInDim S500000 ![] Facts.bcast_S_S500000 (constantI S_ 32 64#32))))
      (constantI S_ 1 1#1) Facts.reducesTo_S500000_S_d0 Facts.h_S_ ix0 = 1#1 :=
    (IntOp.andi_eq_one.1 h).2
  have h2 := Host.reduce_andi_all _ _ Facts.reducesTo_S500000_S_d0 Facts.h_S_ ix0 h1 (ix1 r)
  obtain ⟨hge, hlt⟩ := IntOp.andi_eq_one.1 h2
  have hge' := IntOp.cmpi_sge.1 hge
  have hlt' := IntOp.cmpi_slt.1 hlt
  rw [bcast_zero_at] at hge'
  rw [bcast_sixtyfour_at] at hlt'
  have z : (0#32 : BitVec 32).toInt = 0 := by decide
  have s : (64#32 : BitVec 32).toInt = 64 := by decide
  rw [z] at hge'
  rw [s] at hlt'
  exact ⟨hge', hlt'⟩

/-- The last conjunct of the precondition, at one entry. -/
theorem batch_range (a0 a1 a2 : FVec F S500000x128 .f32) (a3 : FVec F S64x128 .f32) (a4 : IVec S500000 32)
    (a5 : FVec F S512x128 .f32) (a6 : FVec F S128 .f32) (a7 : FVec F S128x128 .f32) (a8 : FVec F S128 .f32)
    (a9 : FVec F S128x128 .f32) (a10 a11 a12 a13 a14 a15 a16 a17 a18 a19 a20 a21 a22 : FVec F S128 .f32)
    (h : Cert.Pre_finite_inputs.fn (F := F) a0 a1 a2 a3 a4 a5 a6 a7 a8 a9 a10 a11 a12 a13 a14 a15 a16 a17 a18 a19 a20 a21 a22 = fun _ => 1#1) (r : Fin 500000) :
    0 ≤ (a4 (ix1 r)).toInt ∧ (a4 (ix1 r)).toInt < 64 := by
  -- the printed chain is cut into parts, each ending in the call of the next: the whole is its last part
  -- at the names the earlier parts computed
  obtain ⟨v98, v101, c39, e⟩ : ∃ (v98 : IVec S_ 1) (v101 : IVec S128 1) (c39 : IVec S_ 1),
      Cert.Pre_finite_inputs.fn (F := F) a0 a1 a2 a3 a4 a5 a6 a7 a8 a9 a10 a11 a12 a13 a14 a15 a16 a17 a18 a19 a20 a21 a22
        = fn_part6 (F := F) a4 a22 v98 v101 c39 := ⟨_, _, _, rfl⟩
  rw [e] at h
  exact part6_range a4 a22 v98 v101 c39 (congrFun h ix0) r

end Cert.EdgeNet.Pre

end
-- ==== Proof.lean ====
/-
  The certificate of the edge network kernel against its reference.

  Both programs compute, for every edge e, the three-layer network on the joined row
  [ src(e) | dest(e) | edge_attr(e) | u(b(e)) ].  The reference joins the row and contracts it with the whole first matrix;
  the kernel contracts each 128-wide piece with its quarter of the matrix and adds, and obtains u(b(e)) as the sum over all
  graphs j of [b(e) = j] · u(j).  Over the extended reals a sum of 512 terms is the sum of its four quarters, and the
  weighted sum has the one surviving term u(b(e)) because 1 · x = x and 0 · x = 0 for every x — as soon as 0 ≤ b(e) < 64,
  which the precondition states.  The kernel's result array is read block by block (250 blocks of 2000 rows) and the
  reference's result operation by operation; both are the same function `Cert.EdgeNet.out` of the argument arrays.
  The three frames are the generated ones (the reference's is its generated run with the result dropped); the
  idealization rewrote nothing, so there is nothing to preserve.
-/
import proofs.«416180_j62689342653097_1_alg».proof.Defs
import proofs.«416180_j62689342653097_1_alg».proof.Proof.Gen.Kernel
import proofs.«416180_j62689342653097_1_alg».proof.Proof.Gen.Kernel.Skeleton
import proofs.«416180_j62689342653097_1_alg».proof.Proof.Gen.Kernel.Launch
import proofs.«416180_j62689342653097_1_alg».proof.Proof.Gen.Kernel.Points
import proofs.«416180_j62689342653097_1_alg».proof.Proof.Gen.Kernel.Frame
import proofs.«416180_j62689342653097_1_alg».proof.Proof.Gen.KernelIdeal
import proofs.«416180_j62689342653097_1_alg».proof.Proof.Gen.KernelIdeal.Skeleton
import proofs.«416180_j62689342653097_1_alg».proof.Proof.Gen.KernelIdeal.Launch
import proofs.«416180_j62689342653097_1_alg».proof.Proof.Gen.KernelIdeal.Points
import proofs.«416180_j62689342653097_1_alg».proof.Proof.Gen.KernelIdeal.Frame
import proofs.«416180_j62689342653097_1_alg».proof.Proof.Gen.ReferenceIdeal
import proofs.«416180_j62689342653097_1_alg».proof.Proof.Gen.Pre_finite_inputs
import proofs.«416180_j62689342653097_1_alg».proof.Proof.Gen.KernelIdeal.Value
import proofs.«416180_j62689342653097_1_alg».proof.Proof.Gen.ReferenceIdeal.Run
import proofs.«416180_j62689342653097_1_alg».proof.Proof.Gen.ReferenceIdeal.Read
import proofs.«416180_j62689342653097_1_alg».proof.Proof.Spec
import proofs.«416180_j62689342653097_1_alg».proof.Proof.Blocks
import proofs.«416180_j62689342653097_1_alg».proof.Proof.RefValue
import proofs.«416180_j62689342653097_1_alg».proof.Proof.BatchRange
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The network's result depends on the argument arrays only. -/
theorem out_congr (x0 : Cert.EdgeNet.SE.Idx → EReal) (x1 : Cert.EdgeNet.SE.Idx → EReal) (x2 : Cert.EdgeNet.SE.Idx → EReal) (x3 : Cert.EdgeNet.SU.Idx → EReal) (x4 : Cert.EdgeNet.SB.Idx → BitVec 32) (x5 : Cert.EdgeNet.SW0.Idx → EReal) (x6 : Cert.EdgeNet.SV.Idx → EReal) (x7 : Cert.EdgeNet.SW.Idx → EReal) (x8 : Cert.EdgeNet.SV.Idx → EReal) (x9 : Cert.EdgeNet.SW.Idx → EReal) (x10 : Cert.EdgeNet.SV.Idx → EReal) (x11 : Cert.EdgeNet.SV.Idx → EReal) (x12 : Cert.EdgeNet.SV.Idx → EReal) (x13 : Cert.EdgeNet.SV.Idx → EReal) (x14 : Cert.EdgeNet.SV.Idx → EReal) (x15 : Cert.EdgeNet.SV.Idx → EReal) (x16 : Cert.EdgeNet.SV.Idx → EReal) (x17 : Cert.EdgeNet.SV.Idx → EReal) (x18 : Cert.EdgeNet.SV.Idx → EReal) (x19 : Cert.EdgeNet.SV.Idx → EReal) (x20 : Cert.EdgeNet.SV.Idx → EReal) (x21 : Cert.EdgeNet.SV.Idx → EReal) (x22 : Cert.EdgeNet.SV.Idx → EReal)
    (y0 : Cert.EdgeNet.SE.Idx → EReal) (y1 : Cert.EdgeNet.SE.Idx → EReal) (y2 : Cert.EdgeNet.SE.Idx → EReal) (y3 : Cert.EdgeNet.SU.Idx → EReal) (y4 : Cert.EdgeNet.SB.Idx → BitVec 32) (y5 : Cert.EdgeNet.SW0.Idx → EReal) (y6 : Cert.EdgeNet.SV.Idx → EReal) (y7 : Cert.EdgeNet.SW.Idx → EReal) (y8 : Cert.EdgeNet.SV.Idx → EReal) (y9 : Cert.EdgeNet.SW.Idx → EReal) (y10 : Cert.EdgeNet.SV.Idx → EReal) (y11 : Cert.EdgeNet.SV.Idx → EReal) (y12 : Cert.EdgeNet.SV.Idx → EReal) (y13 : Cert.EdgeNet.SV.Idx → EReal) (y14 : Cert.EdgeNet.SV.Idx → EReal) (y15 : Cert.EdgeNet.SV.Idx → EReal) (y16 : Cert.EdgeNet.SV.Idx → EReal) (y17 : Cert.EdgeNet.SV.Idx → EReal) (y18 : Cert.EdgeNet.SV.Idx → EReal) (y19 : Cert.EdgeNet.SV.Idx → EReal) (y20 : Cert.EdgeNet.SV.Idx → EReal) (y21 : Cert.EdgeNet.SV.Idx → EReal) (y22 : Cert.EdgeNet.SV.Idx → EReal)
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) :
    Cert.EdgeNet.out x0 x1 x2 x3 x4 x5 x6 x7 x8 x9 x10 x11 x12 x13 x14 x15 x16 x17 x18 x19 x20 x21 x22 = Cert.EdgeNet.out y0 y1 y2 y3 y4 y5 y6 y7 y8 y9 y10 y11 y12 y13 y14 y15 y16 y17 y18 y19 y20 y21 y22 := by
  subst e0 e1 e2 e3 e4 e5 e6 e7 e8 e9 e10 e11 e12 e13 e14 e15 e16 e17 e18 e19 e20 e21 e22
  rfl

/-- From memories that agree on the arguments, the kernel's result array (read block by block) and the reference's (read
    operation by operation) are the same function of the arguments; the graph indices are in range by the precondition. -/
theorem algebraic : Cert.algebraic_KernelIdeal_ReferenceIdeal := by
  intro m ρ m' ρ' hpre hagree
  have hb : ∀ (c : Dev Cert.KernelIdeal.nD) (r : Fin 500000),
      0 ≤ ((m ((c : Thread Cert.KernelIdeal.nD Cert.KernelIdeal.τ).loc Cert.KernelIdeal.main_arg4)) (ix1 r)).toInt
        ∧ ((m ((c : Thread Cert.KernelIdeal.nD Cert.KernelIdeal.τ).loc Cert.KernelIdeal.main_arg4)) (ix1 r)).toInt < 64 :=
    fun c r => Cert.EdgeNet.Pre.batch_range (F := Ideal) _ _ _ _ _ _ _ _ _ _ _ _ _ _ _ _ _ _ _ _ _ _ _ (hpre c) r
  refine ⟨_, Cert.EdgeNet.Blocks.kernel_run m ρ hb, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22⟩ := hagree c
  rw [Cert.ReferenceIdeal.Read.val_main_v67_eq, Cert.EdgeNet.Ref.ref_eq]
  exact out_congr _ _ _ _ _ _ _ _ _ _ _ _ _ _ _ _ _ _ _ _ _ _ _ _ _ _ _ _ _ _ _ _ _ _ _ _ _ _ _ _ _ _ _ _ _ _ h0 h1 h2 h3 h4 h5 h6 h7 h8 h9 h10 h11 h12 h13 h14 h15 h16 h17 h18 h19 h20 h21 h22

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
